-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x4096 : Shape := ⟨3, ![4, 256, 4096]⟩
abbrev S14336x4096 : Shape := ⟨2, ![14336, 4096]⟩
abbrev S14336x4 : Shape := ⟨2, ![14336, 4]⟩
abbrev S4x4096 : Shape := ⟨2, ![4, 4096]⟩
abbrev S4096x14336 : Shape := ⟨2, ![4096, 14336]⟩
abbrev S4096x4 : Shape := ⟨2, ![4096, 4]⟩
abbrev S4x14336 : Shape := ⟨2, ![4, 14336]⟩
abbrev S_ : Shape := ⟨0, ![]⟩

class Facts : Prop where
  bcast_S_S4x256x4096 : S_.BroadcastsInDim S4x256x4096 (![] : Fin 0 → Fin S4x256x4096.rank)
  reducesTo_S4x256x4096_S_d0_1_2 : S4x256x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S14336x4 : S_.BroadcastsInDim S14336x4 (![] : Fin 0 → Fin S14336x4.rank)
  reducesTo_S14336x4_S_d0_1 : S14336x4.ReducesTo [0, 1] S_
  bcast_S_S4x4096 : S_.BroadcastsInDim S4x4096 (![] : Fin 0 → Fin S4x4096.rank)
  reducesTo_S4x4096_S_d0_1 : S4x4096.ReducesTo [0, 1] S_
  bcast_S_S4096x14336 : S_.BroadcastsInDim S4096x14336 (![] : Fin 0 → Fin S4096x14336.rank)
  reducesTo_S4096x14336_S_d0_1 : S4096x14336.ReducesTo [0, 1] S_
  bcast_S_S4096x4 : S_.BroadcastsInDim S4096x4 (![] : Fin 0 → Fin S4096x4.rank)
  reducesTo_S4096x4_S_d0_1 : S4096x4.ReducesTo [0, 1] S_
  bcast_S_S4x14336 : S_.BroadcastsInDim S4x14336 (![] : Fin 0 → Fin S4x14336.rank)
  reducesTo_S4x14336_S_d0_1 : S4x14336.ReducesTo [0, 1] S_

variable [Facts]

def fn_part2 {F : FTy → Type} [FloatOps F] (main_arg7 : FVec F S4096x14336 .f32) (main_arg8 : FVec F S4096x4 .f32) (main_arg9 : FVec F S4x14336 .f32) (main_v33 : IVec S_ 1) : IVec S_ 1 :=
  let main_v34 : FVec F S4096x14336 .f32 := Host.absf main_arg7
  let main_cst_12 : FVec F S_ .f32 := constant S_ .f32 0x7F800000#32
  let main_v35 : FVec F S4096x14336 .f32 := broadcastInDim S4096x14336 ![] bcast_S_S4096x14336 main_cst_12
  let main_v36 : IVec S4096x14336 1 := cmpf .olt main_v34 main_v35
  let main_c_13 : IVec S_ 1 := constantI S_ 1 1#1
  let main_v37 : IVec S_ 1 := (fun x v => Host.reduce IntOp.andi x v reducesTo_S4096x14336_S_d0_1 h_S_) main_v36 main_c_13
  let main_v38 : IVec S_ 1 := andi main_v33 main_v37
  let main_v39 : FVec F S4096x4 .f32 := Host.absf main_arg8
  let main_cst_14 : FVec F S_ .f32 := constant S_ .f32 0x7F800000#32
  let main_v40 : FVec F S4096x4 .f32 := broadcastInDim S4096x4 ![] bcast_S_S4096x4 main_cst_14
  let main_v41 : IVec S4096x4 1 := cmpf .olt main_v39 main_v40
  let main_c_15 : IVec S_ 1 := constantI S_ 1 1#1
  let main_v42 : IVec S_ 1 := (fun x v => Host.reduce IntOp.andi x v reducesTo_S4096x4_S_d0_1 h_S_) main_v41 main_c_15
  let main_v43 : IVec S_ 1 := andi main_v38 main_v42
  let main_v44 : FVec F S4x14336 .f32 := Host.absf main_arg9
  let main_cst_16 : FVec F S_ .f32 := constant S_ .f32 0x7F800000#32
  let main_v45 : FVec F S4x14336 .f32 := broadcastInDim S4x14336 ![] bcast_S_S4x14336 main_cst_16
  let main_v46 : IVec S4x14336 1 := cmpf .olt main_v44 main_v45
  let main_c_17 : IVec S_ 1 := constantI S_ 1 1#1
  let main_v47 : IVec S_ 1 := (fun x v => Host.reduce IntOp.andi x v reducesTo_S4x14336_S_d0_1 h_S_) main_v46 main_c_17
  let main_v48 : IVec S_ 1 := andi main_v43 main_v47
  main_v48

def fn_part1 {F : FTy → Type} [FloatOps F] (main_arg4 : FVec F S14336x4096 .f32) (main_arg5 : FVec F S14336x4 .f32) (main_arg6 : FVec F S4x4096 .f32) (main_arg7 : FVec F S4096x14336 .f32) (main_arg8 : FVec F S4096x4 .f32) (main_arg9 : FVec F S4x14336 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S14336x4096 .f32 := Host.absf main_arg4
  let main_cst_6 : FVec F S_ .f32 := constant S_ .f32 0x7F800000#32
  let main_v20 : FVec F S14336x4096 .f32 := broadcastInDim S14336x4096 ![] bcast_S_S14336x4096 main_cst_6
  let main_v21 : IVec S14336x4096 1 := cmpf .olt main_v19 main_v20
  let main_c_7 : IVec S_ 1 := constantI S_ 1 1#1
  let main_v22 : IVec S_ 1 := (fun x v => Host.reduce IntOp.andi x v reducesTo_S14336x4096_S_d0_1 h_S_) main_v21 main_c_7
  let main_v23 : IVec S_ 1 := andi main_v18 main_v22
  let main_v24 : FVec F S14336x4 .f32 := Host.absf main_arg5
  let main_cst_8 : FVec F S_ .f32 := constant S_ .f32 0x7F800000#32
  let main_v25 : FVec F S14336x4 .f32 := broadcastInDim S14336x4 ![] bcast_S_S14336x4 main_cst_8
  let main_v26 : IVec S14336x4 1 := cmpf .olt main_v24 main_v25
  let main_c_9 : IVec S_ 1 := constantI S_ 1 1#1
  let main_v27 : IVec S_ 1 := (fun x v => Host.reduce IntOp.andi x v reducesTo_S14336x4_S_d0_1 h_S_) main_v26 main_c_9
  let main_v28 : IVec S_ 1 := andi main_v23 main_v27
  let main_v29 : FVec F S4x4096 .f32 := Host.absf main_arg6
  let main_cst_10 : FVec F S_ .f32 := constant S_ .f32 0x7F800000#32
  let main_v30 : FVec F S4x4096 .f32 := broadcastInDim S4x4096 ![] bcast_S_S4x4096 main_cst_10
  let main_v31 : IVec S4x4096 1 := cmpf .olt main_v29 main_v30
  let main_c_11 : IVec S_ 1 := constantI S_ 1 1#1
  let main_v32 : IVec S_ 1 := (fun x v => Host.reduce IntOp.andi x v reducesTo_S4x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x256x4096 .f32) (main_arg1 : FVec F S14336x4096 .f32) (main_arg2 : FVec F S14336x4 .f32) (main_arg3 : FVec F S4x4096 .f32) (main_arg4 : FVec F S14336x4096 .f32) (main_arg5 : FVec F S14336x4 .f32) (main_arg6 : FVec F S4x4096 .f32) (main_arg7 : FVec F S4096x14336 .f32) (main_arg8 : FVec F S4096x4 .f32) (main_arg9 : FVec F S4x14336 .f32) : IVec S_ 1 :=
  let main_v0 : FVec F S4x256x4096 .f32 := Host.absf main_arg0
  let main_cst : FVec F S_ .f32 := constant S_ .f32 0x7F800000#32
  let main_v1 : FVec F S4x256x4096 .f32 := broadcastInDim S4x256x4096 ![] bcast_S_S4x256x4096 main_cst
  let main_v2 : IVec S4x256x4096 1 := cmpf .olt main_v0 main_v1
  let main_c : IVec S_ 1 := constantI S_ 1 1#1
  let main_v3 : IVec S_ 1 := (fun x v => Host.reduce IntOp.andi x v reducesTo_S4x256x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S14336x4 .f32 := Host.absf main_arg2
  let main_cst_2 : FVec F S_ .f32 := constant S_ .f32 0x7F800000#32
  let main_v10 : FVec F S14336x4 .f32 := broadcastInDim S14336x4 ![] bcast_S_S14336x4 main_cst_2
  let main_v11 : IVec S14336x4 1 := cmpf .olt main_v9 main_v10
  let main_c_3 : IVec S_ 1 := constantI S_ 1 1#1
  let main_v12 : IVec S_ 1 := (fun x v => Host.reduce IntOp.andi x v reducesTo_S14336x4_S_d0_1 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_arg6 main_arg7 main_arg8 main_arg9 main_v13 main_v16
-- ==== Kernel.lean ====
abbrev S4x256x4096 : Shape := ⟨3, ![4, 256, 4096]⟩
abbrev S14336x4096 : Shape := ⟨2, ![14336, 4096]⟩
abbrev S14336x4 : Shape := ⟨2, ![14336, 4]⟩
abbrev S4x4096 : Shape := ⟨2, ![4, 4096]⟩
abbrev S4096x14336 : Shape := ⟨2, ![4096, 14336]⟩
abbrev S4096x4 : Shape := ⟨2, ![4096, 4]⟩
abbrev S4x14336 : Shape := ⟨2, ![4, 14336]⟩
abbrev S1024x4096 : Shape := ⟨2, ![1024, 4096]⟩
abbrev S1024x14336 : Shape := ⟨2, ![1024, 14336]⟩
abbrev S256x4096 : Shape := ⟨2, ![256, 4096]⟩
abbrev S256x4 : Shape := ⟨2, ![256, 4]⟩
abbrev S1024x256 : Shape := ⟨2, ![1024, 256]⟩
abbrev S1024x128 : Shape := ⟨2, ![1024, 128]⟩
abbrev S4096x128 : Shape := ⟨2, ![4096, 128]⟩
abbrev S4x128 : Shape := ⟨2, ![4, 128]⟩

abbrev nBuf : Space → Nat
  | .hbm => 16
  | .vmem => 21
  | .smem => 0
  | _ => 0

abbrev bufTy : (tb : Table) → Fin (tcTables nBuf tb) → BufTy
  | .hbm, ⟨0, _⟩ => ⟨S4x256x4096, .f32⟩
  | .hbm, ⟨1, _⟩ => ⟨S14336x4096, .f32⟩
  | .hbm, ⟨2, _⟩ => ⟨S14336x4, .f32⟩
  | .hbm, ⟨3, _⟩ => ⟨S4x4096, .f32⟩
  | .hbm, ⟨4, _⟩ => ⟨S14336x4096, .f32⟩
  | .hbm, ⟨5, _⟩ => ⟨S14336x4, .f32⟩
  | .hbm, ⟨6, _⟩ => ⟨S4x4096, .f32⟩
  | .hbm, ⟨7, _⟩ => ⟨S4096x14336, .f32⟩
  | .hbm, ⟨8, _⟩ => ⟨S4096x4, .f32⟩
  | .hbm, ⟨9, _⟩ => ⟨S4x14336, .f32⟩
  | .hbm, ⟨10, _⟩ => ⟨S1024x4096, .f32⟩
  | .hbm, ⟨11, _⟩ => ⟨S1024x4096, .bf16⟩
  | .hbm, ⟨12, _⟩ => ⟨S4x4096, .f32⟩
  | .hbm, ⟨13, _⟩ => ⟨S1024x14336, .bf16⟩
  | .hbm, ⟨14, _⟩ => ⟨S1024x4096, .f32⟩
  | .hbm, ⟨15, _⟩ => ⟨S4x256x4096, .f32⟩
  | .local _ .vmem, ⟨0, _⟩ => ⟨S1024x4096, .bf16⟩
  | .local _ .vmem, ⟨1, _⟩ => ⟨S256x4096, .f32⟩
  | .local _ .vmem, ⟨2, _⟩ => ⟨S256x4096, .f32⟩
  | .local _ .vmem, ⟨3, _⟩ => ⟨S256x4, .f32⟩
  | .local _ .vmem, ⟨4, _⟩ => ⟨S256x4, .f32⟩
  | .local _ .vmem, ⟨5, _⟩ => ⟨S4x4096, .f32⟩
  | .local _ .vmem, ⟨6, _⟩ => ⟨S256x4096, .f32⟩
  | .local _ .vmem, ⟨7, _⟩ => ⟨S256x4096, .f32⟩
  | .local _ .vmem, ⟨8, _⟩ => ⟨S256x4, .f32⟩
  | .local _ .vmem, ⟨9, _⟩ => ⟨S256x4, .f32⟩
  | .local _ .vmem, ⟨10, _⟩ => ⟨S4x4096, .f32⟩
  | .local _ .vmem, ⟨11, _⟩ => ⟨S1024x256, .bf16⟩
  | .local _ .vmem, ⟨12, _⟩ => ⟨S1024x256, .bf16⟩
  | .local _ .vmem, ⟨13, _⟩ => ⟨S1024x128, .bf16⟩
  | .local _ .vmem, ⟨14, _⟩ => ⟨S1024x128, .bf16⟩
  | .local _ .vmem, ⟨15, _⟩ => ⟨S4096x128, .f32⟩
  | .local _ .vmem, ⟨16, _⟩ => ⟨S4096x128, .f32⟩
  | .local _ .vmem, ⟨17, _⟩ => ⟨S4x4096, .f32⟩
  | .local _ .vmem, ⟨18, _⟩ => ⟨S4x128, .f32⟩
  | .local _ .vmem, ⟨19, _⟩ => ⟨S4x128, .f32⟩
  | .local _ .vmem, ⟨20, _⟩ => ⟨S1024x4096, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![112], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S4x256x4096_S1024x4096 : S4x256x4096.ShapeCasts S1024x4096
  bitsLt_bf16_f32 : FTy.bits .bf16 < FTy.bits .f32
  transposes_S4096x4_S4x4096_1_0 : S4096x4.Transposes [1, 0] S4x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4_S256x4_0_0 : ∀ a, (![0, 0] : Fin 2 → Nat) a + S256x4.size a ≤ S256x4.size a
  h_S256x4 : 0 < S256x4.numel
  inb_S4x4096_S4x4096_0_0 : ∀ a, (![0, 0] : Fin 2 → Nat) a + S4x4096.size a ≤ S4x4096.size a
  h_S4x4096 : 0 < S4x4096.numel
  inb_S256x4096_S256x4096_0_0 : ∀ a, (![0, 0] : Fin 2 → Nat) a + S256x4096.size a ≤ S256x4096.size a
  h_S256x4096 : 0 < S256x4096.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S4x4096_S4x4096 : S4x4096.ShapeCasts S4x4096
  inb_S4x128_S4x128_0_0 : ∀ a, (![0, 0] : Fin 2 → Nat) a + S4x128.size a ≤ S4x128.size a
  h_S4x128 : 0 < S4x128.numel
  inb_S4096x128_S4096x128_0_0 : ∀ a, (![0, 0] : Fin 2 → Nat) a + S4096x128.size a ≤ S4096x128.size a
  h_S4096x128 : 0 < S4096x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S1024x4096_S4x256x4096 : S1024x4096.ShapeCasts S4x256x4096
  dot_S256x4_S4x4096_S256x4096_1_0_0_1_n_n_wf : DotDims.WF S256x4 S4x4096 S256x4096 [1] [0] [0] [1] [] []
  dot_S1024x4096_S256x4096_S1024x256_1_1_0_0_n_n_wf : DotDims.WF S1024x4096 S256x4096 S1024x256 [1] [1] [0] [0] [] []
  dot_S4x4096_S4x128_S4096x128_0_0_1_1_n_n_wf : DotDims.WF S4x4096 S4x128 S4096x128 [0] [0] [1] [1] [] []
  dot_S1024x128_S4096x128_S1024x4096_1_1_0_0_n_n_wf : DotDims.WF S1024x128 S4096x128 S1024x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .f32 = 32 ∨ (Rect.block (s := S14336x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4.size a ≤ S14336x4.size a
  hwx0_2 : ∀ i : grid0.Coords, EltTy.bits .f32 = 32 ∨ (Rect.block (s := S14336x4) S256x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x4096.size a ≤ S4x4096.size a
  hwx0_3 : ∀ i : grid0.Coords, EltTy.bits .f32 = 32 ∨ (Rect.block (s := S4x4096) S4x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S14336x4096.size a
  hwx0_4 : ∀ i : grid0.Coords, EltTy.bits .f32 = 32 ∨ (Rect.block (s := S14336x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4.size a ≤ S14336x4.size a
  hwx0_5 : ∀ i : grid0.Coords, EltTy.bits .f32 = 32 ∨ (Rect.block (s := S14336x4) S256x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x4096.size a ≤ S4x4096.size a
  hwx0_6 : ∀ i : grid0.Coords, EltTy.bits .f32 = 32 ∨ (Rect.block (s := S4x4096) S4x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S1024x14336.size a
  hwx0_7 : ∀ i : grid0.Coords, EltTy.bits .bf16 = 32 ∨ (Rect.block (s := S1024x14336) S1024x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x14336.size a
  hwx1_0 : ∀ i : grid1.Coords, EltTy.bits .bf16 = 32 ∨ (Rect.block (s := S1024x14336) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x14336.size a
  hwx1_1 : ∀ i : grid1.Coords, EltTy.bits .f32 = 32 ∨ (Rect.block (s := S4096x14336) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x4096.size a ≤ S4x4096.size a
  hwx1_2 : ∀ i : grid1.Coords, EltTy.bits .f32 = 32 ∨ (Rect.block (s := S4x4096) S4x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x128.size a ≤ S4x14336.size a
  hwx1_3 : ∀ i : grid1.Coords, EltTy.bits .f32 = 32 ∨ (Rect.block (s := S4x14336) S4x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .f32 = 32 ∨ (Rect.block (s := S1024x4096) S1024x4096.size (cc1_transform_4 i) (hinb1_4 i)).WholeWords (EltTy.packing .f32)

variable [Facts₀]

def dot_S256x4_S4x4096_S256x4096_1_0_0_1_n_n : DotDims S256x4 S4x4096 S256x4096 where
  lhsContracting := [1]
  rhsContracting := [0]
  lhsNonContracting := [0]
  rhsNonContracting := [1]
  lhsBatch := []
  rhsBatch := []
  wf := dot_S256x4_S4x4096_S256x4096_1_0_0_1_n_n_wf
def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf
def dot_S4x4096_S4x128_S4096x128_0_0_1_1_n_n : DotDims S4x4096 S4x128 S4096x128 where
  lhsContracting := [0]
  rhsContracting := [0]
  lhsNonContracting := [1]
  rhsNonContracting := [1]
  lhsBatch := []
  rhsBatch := []
  wf := dot_S4x4096_S4x128_S4096x128_0_0_1_1_n_n_wf
def dot_S1024x128_S4096x128_S1024x4096_1_1_0_0_n_n : DotDims S1024x128 S4096x128 S1024x4096 where
  lhsContracting := [1]
  rhsContracting := [1]
  lhsNonContracting := [0]
  rhsNonContracting := [0]
  lhsBatch := []
  rhsBatch := []
  wf := dot_S1024x128_S4096x128_S1024x4096_1_1_0_0_n_n_wf

abbrev win0_0 : Pipeline.Window sig grid0 :=
  Pipeline.Window.ofSpec (Memref.whole main_v1) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v3) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S4x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x4096.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x256x4096 : Shape := ⟨3, ![4, 256, 4096]⟩
abbrev S14336x4096 : Shape := ⟨2, ![14336, 4096]⟩
abbrev S14336x4 : Shape := ⟨2, ![14336, 4]⟩
abbrev S4x4096 : Shape := ⟨2, ![4, 4096]⟩
abbrev S4096x14336 : Shape := ⟨2, ![4096, 14336]⟩
abbrev S4096x4 : Shape := ⟨2, ![4096, 4]⟩
abbrev S4x14336 : Shape := ⟨2, ![4, 14336]⟩
abbrev S4x256x14336 : Shape := ⟨3, ![4, 256, 14336]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S14336x4096, .f32⟩
  | .hbm, ⟨2, _⟩ => ⟨S14336x4, .f32⟩
  | .hbm, ⟨3, _⟩ => ⟨S4x4096, .f32⟩
  | .hbm, ⟨4, _⟩ => ⟨S14336x4096, .f32⟩
  | .hbm, ⟨5, _⟩ => ⟨S14336x4, .f32⟩
  | .hbm, ⟨6, _⟩ => ⟨S4x4096, .f32⟩
  | .hbm, ⟨7, _⟩ => ⟨S4096x14336, .f32⟩
  | .hbm, ⟨8, _⟩ => ⟨S4096x4, .f32⟩
  | .hbm, ⟨9, _⟩ => ⟨S4x14336, .f32⟩
  | .hbm, ⟨10, _⟩ => ⟨S14336x4096, .f32⟩
  | .hbm, ⟨11, _⟩ => ⟨S14336x4096, .f32⟩
  | .hbm, ⟨12, _⟩ => ⟨S4x256x14336, .f32⟩
  | .hbm, ⟨13, _⟩ => ⟨S14336x4096, .f32⟩
  | .hbm, ⟨14, _⟩ => ⟨S14336x4096, .f32⟩
  | .hbm, ⟨15, _⟩ => ⟨S4x256x14336, .f32⟩
  | .hbm, ⟨16, _⟩ => ⟨S4x256x14336, .f32⟩
  | .hbm, ⟨17, _⟩ => ⟨S4x256x14336, .f32⟩
  | .hbm, ⟨18, _⟩ => ⟨S_, .f32⟩
  | .hbm, ⟨19, _⟩ => ⟨S4x256x14336, .f32⟩
  | .hbm, ⟨20, _⟩ => ⟨S4x256x14336, .f32⟩
  | .hbm, ⟨21, _⟩ => ⟨S_, .f32⟩
  | .hbm, ⟨22, _⟩ => ⟨S4x256x14336, .f32⟩
  | .hbm, ⟨23, _⟩ => ⟨S4x256x14336, .f32⟩
  | .hbm, ⟨24, _⟩ => ⟨S4x256x14336, .f32⟩
  | .hbm, ⟨25, _⟩ => ⟨S4x256x14336, .f32⟩
  | .hbm, ⟨26, _⟩ => ⟨S4096x14336, .f32⟩
  | .hbm, ⟨27, _⟩ => ⟨S4096x14336, .f32⟩
  | .hbm, ⟨28, _⟩ => ⟨S4x256x4096, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]

class Facts₀ : Prop where
  bcast_S_S4x256x14336 : S_.BroadcastsInDim S4x256x14336 (![] : Fin 0 → Fin S4x256x14336.rank)
  dot_S14336x4_S4x4096_S14336x4096_1_0_0_1_n_n_wf : DotDims.WF S14336x4 S4x4096 S14336x4096 [1] [0] [0] [1] [] []
  dot_S4x256x4096_S14336x4096_S4x256x14336_2_1_01_0_n_n_wf : DotDims.WF S4x256x4096 S14336x4096 S4x256x14336 [2] [1] [0, 1] [0] [] []
  dot_S4096x4_S4x14336_S4096x14336_1_0_0_1_n_n_wf : DotDims.WF S4096x4 S4x14336 S4096x14336 [1] [0] [0] [1] [] []
  dot_S4x256x14336_S4096x14336_S4x256x4096_2_1_01_0_n_n_wf : DotDims.WF S4x256x14336 S4096x14336 S4x256x4096 [2] [1] [0, 1] [0] [] []

variable [Facts₀]

def dot_S14336x4_S4x4096_S14336x4096_1_0_0_1_n_n : DotDims S14336x4 S4x4096 S14336x4096 where
  lhsContracting := [1]
  rhsContracting := [0]
  lhsNonContracting := [0]
  rhsNonContracting := [1]
  lhsBatch := []
  rhsBatch := []
  wf := dot_S14336x4_S4x4096_S14336x4096_1_0_0_1_n_n_wf
def dot_S4x256x4096_S14336x4096_S4x256x14336_2_1_01_0_n_n : DotDims S4x256x4096 S14336x4096 S4x256x14336 where
  lhsContracting := [2]
  rhsContracting := [1]
  lhsNonContracting := [0, 1]
  rhsNonContracting := [0]
  lhsBatch := []
  rhsBatch := []
  wf := dot_S4x256x4096_S14336x4096_S4x256x14336_2_1_01_0_n_n_wf
def dot_S4096x4_S4x14336_S4096x14336_1_0_0_1_n_n : DotDims S4096x4 S4x14336 S4096x14336 where
  lhsContracting := [1]
  rhsContracting := [0]
  lhsNonContracting := [0]
  rhsNonContracting := [1]
  lhsBatch := []
  rhsBatch := []
  wf := dot_S4096x4_S4x14336_S4096x14336_1_0_0_1_n_n_wf
def dot_S4x256x14336_S4096x14336_S4x256x4096_2_1_01_0_n_n : DotDims S4x256x14336 S4096x14336 S4x256x4096 where
  lhsContracting := [2]
  rhsContracting := [1]
  lhsNonContracting := [0, 1]
  rhsNonContracting := [0]
  lhsBatch := []
  rhsBatch := []
  wf := dot_S4x256x14336_S4096x14336_S4x256x4096_2_1_01_0_n_n_wf

class Facts : Prop extends Facts₀ where

variable [Facts]
-- ==== Proof.Spec.lean ====
/-
  The mathematics both programs compute, stated once over plain coordinate functions on the extended reals.

  A linear layer whose weight is a stored matrix w scaled entrywise by a rank-4 product su · sv:
      weff w su sv (o, h) = w(o, h) · Σ_q su(o, q) · sv(q, h).
  A row x of the input is projected through two such layers (gate and up), joined by the gated unit
      hidden(i) = (a · logistic a) · b,   a = Σ_h x(h) · Wg(i, h),   b = Σ_h x(h) · Wu(i, h),
  and projected down through a third:
      outRow(o) = Σ_i hidden(i) · Wd(o, i).
  The only algebra the two programs differ by is the grouping of the last sum: one program adds the 14336 terms in
  112 consecutive runs of 128, starting from zero. In a commutative monoid a sum over Fin N is the sum of its runs
  (sum_fin_blocks), and the extended reals under + are one, so nothing about finiteness is needed.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.ScaledMlp

open Idealize.ShloMosaic Idealize.ShloMosaic.ValueIdx

/-- A rank-2 array of extended reals of literal extents. -/
abbrev A2 (r c : Nat) : Type := (⟨2, ![r, c]⟩ : Shape).Idx → EReal
/-- A rank-3 array of extended reals of literal extents. -/
abbrev A3 (a b c : Nat) : Type := (⟨3, ![a, b, c]⟩ : Shape).Idx → EReal

/-- A rank-2 array as a function of its two coordinates. -/
def cur2 {r c : Nat} (A : A2 r c) (a : Fin r) (b : Fin c) : EReal := A (ix2 a b)
/-- The same array read with its coordinates exchanged. -/
def cur2T {r c : Nat} (A : A2 r c) (b : Fin c) (a : Fin r) : EReal := A (ix2 a b)

theorem cur2_apply {r c : Nat} (A : A2 r c) (a : Fin r) (b : Fin c) : cur2 A a b = A (ix2 a b) := rfl
theorem cur2T_apply {r c : Nat} (A : A2 r c) (a : Fin r) (b : Fin c) : cur2T A b a = A (ix2 a b) := rfl

/-- The rank-4 scale of entry (o, h): Σ_q su(o, q) · sv(q, h). -/
def corr {O H : Nat} (su : Fin O → Fin 4 → EReal) (sv : Fin 4 → Fin H → EReal) (o : Fin O) (h : Fin H) : EReal :=
  ∑ q : Fin 4, su o q * sv q h

/-- The effective weight: the stored entry times its scale. -/
def weff {O H : Nat} (w : Fin O → Fin H → EReal) (su : Fin O → Fin 4 → EReal) (sv : Fin 4 → Fin H → EReal)
    (o : Fin O) (h : Fin H) : EReal :=
  w o h * corr su sv o h

/-- One output of a linear layer on the row x: Σ_h x(h) · W(o, h). -/
def proj {O H : Nat} (x : Fin H → EReal) (W : Fin O → Fin H → EReal) (o : Fin O) : EReal :=
  ∑ h : Fin H, x h * W o h

/-- a · logistic a. -/
def silu (a : EReal) : EReal := a * Ideal.logistic a

/-- The gated hidden unit i of the row x. -/
def hidden {I H : Nat} (x : Fin H → EReal) (Wg Wu : Fin I → Fin H → EReal) (i : Fin I) : EReal :=
  silu (proj x Wg i) * proj x Wu i

/-- One term of the down projection. -/
def downTerm {I H O : Nat} (x : Fin H → EReal) (Wg Wu : Fin I → Fin H → EReal) (Wd : Fin O → Fin I → EReal)
    (o : Fin O) (i : Fin I) : EReal :=
  hidden x Wg Wu i * Wd o i

/-- Output o of the row x: the down projection of the hidden units. -/
def outRow {I H O : Nat} (x : Fin H → EReal) (Wg Wu : Fin I → Fin H → EReal) (Wd : Fin O → Fin I → EReal)
    (o : Fin O) : EReal :=
  ∑ i : Fin I, downTerm x Wg Wu Wd o i

/-- The whole result [4, 256, 4096] as one function of the ten argument arrays. -/
def result (x : A3 4 256 4096) (gw : A2 14336 4096) (gsu : A2 14336 4) (gsv : A2 4 4096)
    (uw : A2 14336 4096) (usu : A2 14336 4) (usv : A2 4 4096)
    (dw : A2 4096 14336) (dsu : A2 4096 4) (dsv : A2 4 14336) : A3 4 256 4096 :=
  fun i => outRow (fun h => x (ix3 (i 0) (i 1) h))
    (weff (cur2 gw) (cur2 gsu) (cur2 gsv)) (weff (cur2 uw) (cur2 usu) (cur2 usv))
    (weff (cur2 dw) (cur2 dsu) (cur2 dsv)) (i 2)

/-! ## A sum over Fin N is the sum of its consecutive runs -/

/-- Over the naturals: the first K · B terms, run by run. -/
theorem sum_range_blocks {M : Type*} [AddCommMonoid M] (g : Nat → M) (B : Nat) :
    ∀ K : Nat, ∑ n ∈ Finset.range (K * B), g n = ∑ s ∈ Finset.range K, ∑ j ∈ Finset.range B, g (B * s + j)
  | 0 => by simp
  | K + 1 => by
    rw [Nat.succ_mul, Finset.sum_range_add, Finset.sum_range_succ, sum_range_blocks g B K, Nat.mul_comm K B]

/-- A function on Fin N, extended by zero to the naturals. -/
def ext0 {M : Type*} [Zero M] {N : Nat} (f : Fin N → M) (n : Nat) : M := if h : n < N then f ⟨n, h⟩ else 0

theorem ext0_of_lt {M : Type*} [Zero M] {N : Nat} (f : Fin N → M) (n : Nat) (h : n < N) : ext0 f n = f ⟨n, h⟩ :=
  dif_pos h

/-- A sum over Fin N with N = K · B is the sum over the K runs of the B consecutive terms of each. -/
theorem sum_fin_blocks {M : Type*} [AddCommMonoid M] {N : Nat} (K B : Nat) (hN : K * B = N) (f : Fin N → M) :
    ∑ n : Fin N, f n = ∑ s ∈ Finset.range K, ∑ j : Fin B, ext0 f (B * s + j.val) := by
  subst hN
  have h1 : ∑ n : Fin (K * B), f n = ∑ n ∈ Finset.range (K * B), ext0 f n := by
    rw [← Fin.sum_univ_eq_sum_range]
    exact Finset.sum_congr rfl fun n _ => (ext0_of_lt f n.val n.isLt).symm
  rw [h1, sum_range_blocks]
  exact Finset.sum_congr rfl fun s _ => (Fin.sum_univ_eq_sum_range (fun j => ext0 f (B * s + j)) B).symm

end Cert.ScaledMlp

end
-- ==== Proof.RegionSpec.lean ====
/-
  The two kernel regions of the program, each as one function of the arrays it finds on entry.

  The first region (grid of 56 points, one 256-column tile of the hidden axis per point) leaves the hidden array
  [1024, 14336]: entry (r, i) is the gated unit i of row r of the flattened input, through the scaled gate and up
  weights. The second region (112 points, one 128-column run of the hidden axis per point, accumulating into one
  resident [1024, 4096] block) leaves the output: entry (r, o) is the sum over all 14336 hidden units of the hidden
  entry times the scaled down weight, whose scale is read from the TRANSPOSED [4, 4096] factor. One point's
  contribution to the accumulator is `partialOf` of the point's four input blocks.
-/
import proofs.«141312_j57269093925327_1_alg».proof.Proof.Gen.KernelIdeal.Frame
import proofs.«141312_j57269093925327_1_alg».proof.Proof.Spec

noncomputable section

open scoped BigOperators

namespace Cert.KernelIdeal.RegionSpec

open Cert.KernelIdeal Cert.KernelIdeal.Gen Cert.ScaledMlp
open Idealize.ShloMosaic Idealize.ShloMosaic.TcCoe Idealize.SL.Sem Idealize.ShloMosaic.ValueIdx

variable (V : (c : Dev nD) → (b : Ref sig .tc) → Buf (Elt Ideal) ((c : Thread nD τ).loc b))

/-! The arrays a region finds, each at its literal type. -/
abbrev xArr (c : Dev nD) : A2 1024 4096 := V c main_v1
abbrev gwArr (c : Dev nD) : A2 14336 4096 := V c main_arg1
abbrev gsuArr (c : Dev nD) : A2 14336 4 := V c main_arg2
abbrev gsvArr (c : Dev nD) : A2 4 4096 := V c main_arg3
abbrev uwArr (c : Dev nD) : A2 14336 4096 := V c main_arg4
abbrev usuArr (c : Dev nD) : A2 14336 4 := V c main_arg5
abbrev usvArr (c : Dev nD) : A2 4 4096 := V c main_arg6
abbrev hidArr (c : Dev nD) : A2 1024 14336 := V c main_v3
abbrev dwArr (c : Dev nD) : A2 4096 14336 := V c main_arg7
abbrev dsuTArr (c : Dev nD) : A2 4 4096 := V c main_v2
abbrev dsvArr (c : Dev nD) : A2 4 14336 := V c main_arg9

/-- The hidden array the first region leaves, as one function of the arrays it finds. -/
def hiddenOf (c : Dev nD) : A2 1024 14336 := fun i =>
  hidden (fun h => xArr V c (ix2 (i 0) h))
    (weff (cur2 (gwArr V c)) (cur2 (gsuArr V c)) (cur2 (gsvArr V c)))
    (weff (cur2 (uwArr V c)) (cur2 (usuArr V c)) (cur2 (usvArr V c))) (i 1)

/-- The output array the second region leaves, as one function of the arrays it finds. -/
def downOf (c : Dev nD) : A2 1024 4096 := fun i =>
  ∑ n : Fin 14336, hidArr V c (ix2 (i 0) n)
    * weff (cur2 (dwArr V c)) (cur2T (dsuTArr V c)) (cur2 (dsvArr V c)) (i 1) n

/-- One grid point's contribution to the second region's accumulator, from the point's four input blocks: the hidden
    block d [1024, 128], the stored down-weight block w [4096, 128], the transposed scale factor suT [4, 4096] and the
    scale factor block sv [4, 128]. -/
def partialOf (d : A2 1024 128) (w : A2 4096 128) (suT : A2 4 4096) (sv : A2 4 128) : A2 1024 4096 := fun y =>
  ∑ j : Fin 128, d (ix2 (y 0) j) * weff (cur2 w) (cur2T suT) (cur2 sv) (y 1) j

end Cert.KernelIdeal.RegionSpec

end
-- ==== Proof.GateUp.lean ====
import proofs.«141312_j57269093925327_1_alg».proof.Proof.RegionSpec
import Idealize.ShloMosaic.Lib.Pipeline.Value
import Idealize.ShloMosaic.PureOps.Ideal.Laws

noncomputable section

open scoped BigOperators

namespace Cert.KernelIdeal.GateUp

open Cert.KernelIdeal Cert.KernelIdeal.Gen Cert.ScaledMlp Cert.KernelIdeal.RegionSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The two contractions of the body, read at an entry

The scale product contracts the second axis of a [256, 4] factor with the first axis of a [4, 4096] factor; the
projection contracts the second axes of a [1024, 4096] row block and a [256, 4096] weight block. Into a zero
accumulator each is the plain sum over the contracted coordinate. -/

private theorem lhs_scale_0 (i : S256x4096.Idx) (q : dot_S256x4_S4x4096_S256x4096_1_0_0_1_n_n.contr.Idx) :
    (dot_S256x4_S4x4096_S256x4096_1_0_0_1_n_n.lhsIdx i q 0).val = (i 0).val := by
  unfold DotDims.lhsIdx
  rw [dif_neg (show ¬(0 : Fin S256x4.rank) ∈ dot_S256x4_S4x4096_S256x4096_1_0_0_1_n_n.lhsBatch by decide), dif_pos (show (0 : Fin S256x4.rank) ∈ dot_S256x4_S4x4096_S256x4096_1_0_0_1_n_n.lhsNonContracting by decide)]
  rfl
private theorem lhs_scale_1 (i : S256x4096.Idx) (q : dot_S256x4_S4x4096_S256x4096_1_0_0_1_n_n.contr.Idx) :
    (dot_S256x4_S4x4096_S256x4096_1_0_0_1_n_n.lhsIdx i q 1).val = (q ⟨0, by decide⟩).val :=
  dot_S256x4_S4x4096_S256x4096_1_0_0_1_n_n.lhsIdx_val_of_single rfl i q
private theorem rhs_scale_0 (i : S256x4096.Idx) (q : dot_S256x4_S4x4096_S256x4096_1_0_0_1_n_n.contr.Idx) :
    (dot_S256x4_S4x4096_S256x4096_1_0_0_1_n_n.rhsIdx i q 0).val = (q ⟨0, by decide⟩).val :=
  dot_S256x4_S4x4096_S256x4096_1_0_0_1_n_n.rhsIdx_val_of_single rfl i q
private theorem rhs_scale_1 (i : S256x4096.Idx) (q : dot_S256x4_S4x4096_S256x4096_1_0_0_1_n_n.contr.Idx) :
    (dot_S256x4_S4x4096_S256x4096_1_0_0_1_n_n.rhsIdx i q 1).val = (i 1).val := by
  unfold DotDims.rhsIdx
  rw [dif_neg (show ¬(1 : Fin S4x4096.rank) ∈ dot_S256x4_S4x4096_S256x4096_1_0_0_1_n_n.rhsBatch by decide), dif_pos (show (1 : Fin S4x4096.rank) ∈ dot_S256x4_S4x4096_S256x4096_1_0_0_1_n_n.rhsNonContracting by decide)]
  rfl

/-- The scale product at entry (a, h): the sum over the four shared coordinates. -/
private theorem scale_apply (l : FVec Ideal S256x4 .bf16) (r : FVec Ideal S4x4096 .bf16) (a : Fin 256) (h : Fin 4096) :
    matmul dot_S256x4_S4x4096_S256x4096_1_0_0_1_n_n none l r (constant S256x4096 .f32 0x00000000#32) (ix2 a h)
      = ∑ q : Fin 4, l (ix2 a q) * r (ix2 q h) := by
  simp only [matmul]
  rw [Ideal.matmul_constant_zero_apply, ← Equiv.sum_comp (contrEquiv1 dot_S256x4_S4x4096_S256x4096_1_0_0_1_n_n 4 rfl rfl).symm]
  refine Finset.sum_congr rfl fun k _ => ?_
  have hk := contrEquiv1_symm_val dot_S256x4_S4x4096_S256x4096_1_0_0_1_n_n 4 rfl rfl k
  have el : dot_S256x4_S4x4096_S256x4096_1_0_0_1_n_n.lhsIdx (ix2 a h) ((contrEquiv1 dot_S256x4_S4x4096_S256x4096_1_0_0_1_n_n 4 rfl rfl).symm k) = ix2 a k := funext fun d => Fin.ext (by
    match d with
    | ⟨0, _⟩ => exact lhs_scale_0 _ _
    | ⟨1, _⟩ => exact (lhs_scale_1 _ _).trans hk)
  have er : dot_S256x4_S4x4096_S256x4096_1_0_0_1_n_n.rhsIdx (ix2 a h) ((contrEquiv1 dot_S256x4_S4x4096_S256x4096_1_0_0_1_n_n 4 rfl rfl).symm k) = ix2 k h := funext fun d => Fin.ext (by
    match d with
    | ⟨0, _⟩ => exact (rhs_scale_0 _ _).trans hk
    | ⟨1, _⟩ => exact rhs_scale_1 _ _)
  rw [el, er]

private theorem lhs_proj_0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
private theorem lhs_proj_1 (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
private theorem rhs_proj_0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
private theorem rhs_proj_1 (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The projection at entry (r, j): the sum over the 4096 input coordinates of row r times weight row j. -/
private theorem proj_apply (l : FVec Ideal S1024x4096 .bf16) (w : FVec Ideal S256x4096 .bf16) (r : Fin 1024) (j : Fin 256) :
    matmul dot_S1024x4096_S256x4096_S1024x256_1_1_0_0_n_n none l w (constant S1024x256 .f32 0x00000000#32) (ix2 r j)
      = ∑ h : Fin 4096, l (ix2 r h) * w (ix2 j h) := by
  simp only [matmul]
  rw [Ideal.matmul_constant_zero_apply, ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 r j) ((contrEquiv1 dot_S1024x4096_S256x4096_S1024x256_1_1_0_0_n_n 4096 rfl rfl).symm k) = ix2 r k := funext fun d => Fin.ext (by
    match d with
    | ⟨0, _⟩ => exact lhs_proj_0 _ _
    | ⟨1, _⟩ => exact (lhs_proj_1 _ _).trans hk)
  have er : dot_S1024x4096_S256x4096_S1024x256_1_1_0_0_n_n.rhsIdx (ix2 r j) ((contrEquiv1 dot_S1024x4096_S256x4096_S1024x256_1_1_0_0_n_n 4096 rfl rfl).symm k) = ix2 j k := funext fun d => Fin.ext (by
    match d with
    | ⟨0, _⟩ => exact rhs_proj_0 _ _
    | ⟨1, _⟩ => exact (rhs_proj_1 _ _).trans hk)
  rw [el, er]

/-! ## The body's arithmetic at an entry -/

/-- A row block projected through a stored weight block scaled by the product of its two factors: entry (r, j) is
    the projection of row r through the effective weight row j. Changes of format are the identity on extended
    reals, and so is a cast to the same shape. -/
private theorem scaled_proj_apply (x : FVec Ideal S1024x4096 .bf16) (su : FVec Ideal S256x4 .f32) (sv : FVec Ideal S4x4096 .f32)
    (w : FVec Ideal S256x4096 .f32) (r : Fin 1024) (j : Fin 256) :
    matmul (F := Ideal) dot_S1024x4096_S256x4096_S1024x256_1_1_0_0_n_n none
        (shapeCast S1024x4096 x shapeCasts_S1024x4096_S1024x4096)
        (truncf .bf16 (mulf w (matmul dot_S256x4_S4x4096_S256x4096_1_0_0_1_n_n none (truncf .bf16 su bitsLt_bf16_f32)
          (truncf .bf16 sv bitsLt_bf16_f32) (constant S256x4096 .f32 0x00000000#32))) bitsLt_bf16_f32)
        (constant S1024x256 .f32 0x00000000#32) (ix2 r j)
      = proj (fun h => x (ix2 r h)) (weff (cur2 w) (cur2 su) (cur2 sv)) j := by
  rw [shapeCast_self]
  refine (proj_apply _ _ r j).trans ?_
  unfold proj
  refine Finset.sum_congr rfl fun h _ => ?_
  refine congrArg (x (ix2 r h) * ·) ?_
  unfold weff corr
  refine congrArg (w (ix2 j h) * ·) ?_
  exact scale_apply _ _ j h

/-- The body's one stored value at entry (r, j): the gated unit j of row r through the two effective weight blocks. -/
private theorem pay_apply (v0 : Vec Ideal S1024x4096 .bf16) (v2 : Vec Ideal S256x4 .f32) (v4 : Vec Ideal S4x4096 .f32)
    (v7 : Vec Ideal S256x4096 .f32) (v10 : Vec Ideal S256x4 .f32) (v12 : Vec Ideal S4x4096 .f32)
    (v15 : Vec Ideal S256x4096 .f32) (r : Fin 1024) (j : Fin 256) :
    k0_pay1 v0 v2 v4 v7 v10 v12 v15 (ix2 r j)
      = hidden (fun h => v0 (ix2 r h)) (weff (cur2 v7) (cur2 v2) (cur2 v4)) (weff (cur2 v15) (cur2 v10) (cur2 v12)) j := by
  unfold k0_pay1 Cert.ScaledMlp.hidden silu
  exact congr (congrArg (fun a b : EReal => (a * Ideal.logistic a) * b) (scaled_proj_apply v0 v2 v4 v7 r j))
    (scaled_proj_apply v0 v10 v12 v15 r j)

/-! ## One grid point

Point t works on the 256 hidden units t·256 … t·256 + 255: the row block of the input and the two [4, 4096] scale
factors are whole arrays (block (0, 0)), the stored weights and the [14336, 4] scale factors are read at row block t,
and the result is column block t of the hidden array. -/

private theorem zero_offsets : (![0, 0] : Fin 2 → Nat) = fun _ => 0 := funext fun a => by fin_cases a <;> rfl

/-- The effective weight at (o, h) depends only on row o of the stored weight and of the first factor, and on
    column h of the second. -/
private theorem weff_congr {O O' H : Nat} (w : Fin O → Fin H → EReal) (su : Fin O → Fin 4 → EReal) (sv : Fin 4 → Fin H → EReal)
    (w' : Fin O' → Fin H → EReal) (su' : Fin O' → Fin 4 → EReal) (sv' : Fin 4 → Fin H → EReal)
    (o : Fin O) (o' : Fin O') (h : Fin H)
    (hw : w o h = w' o' h) (hsu : ∀ q, su o q = su' o' q) (hsv : ∀ q, sv q h = sv' q h) :
    weff w su sv o h = weff w' su' sv' o' h := by
  unfold weff corr
  rw [hw]
  exact congrArg _ (Finset.sum_congr rfl fun q _ => by rw [hsu q, hsv q])

/-- The gated unit i depends only on the row and on row i of each weight. -/
private theorem hidden_congr {I I' H : Nat} (x x' : Fin H → EReal) (Wg Wu : Fin I → Fin H → EReal)
    (Wg' Wu' : Fin I' → Fin H → EReal) (i : Fin I) (i' : Fin I')
    (hx : ∀ h, x h = x' h) (hg : ∀ h, Wg i h = Wg' i' h) (hu : ∀ h, Wu i h = Wu' i' h) :
    Cert.ScaledMlp.hidden x Wg Wu i = Cert.ScaledMlp.hidden x' Wg' Wu' i' := by
  have pg : proj x Wg i = proj x' Wg' i' := Finset.sum_congr rfl fun h _ => by rw [hx h, hg h]
  have pu : proj x Wu i = proj x' Wu' i' := Finset.sum_congr rfl fun h _ => by rw [hx h, hu h]
  unfold Cert.ScaledMlp.hidden
  rw [pg, pu]

/-- The block index of every window at every point, decided over the 56 points. -/
private theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- The input's block at any point is the whole input. -/
private theorem blk0_apply (c : Dev nD) (t : Fin cfg0.N) (p : S1024x4096.Idx) :
    (iblk0 V c 0 t : Vec Ideal S1024x4096 .bf16) p = xArr V c p := by
  obtain ⟨e0, e1, -⟩ := index_facts t
  unfold iblk0
  rw [View.read_apply]
  show V c main_v1 (((cfg0.win 0).blk t).view.emb p) = V c main_v1 p
  refine congrArg _ (funext fun a => Fin.ext ?_)
  match a with
  | ⟨0, _⟩ => show win0_0.index t (0 : Fin 2) * 1024 + 1 * (p 0).val = (p 0).val; omega
  | ⟨1, _⟩ => show win0_0.index t (1 : Fin 2) * 4096 + 1 * (p 1).val = (p 1).val; omega

/-- The gate weight's block at point t is rows t·256 … of the stored gate weight. -/
private theorem blk1_apply (c : Dev nD) (t : Fin cfg0.N) (p : S256x4096.Idx) (k : S14336x4096.Idx)
    (hk0 : (k 0).val = t.val * 256 + (p 0).val) (hk1 : (k 1).val = (p 1).val) :
    (iblk0 V c 1 t : Vec Ideal S256x4096 .f32) p = gwArr V c k := by
  obtain ⟨-, -, e0, e1, -⟩ := index_facts t
  unfold iblk0
  rw [View.read_apply]
  show V c main_arg1 (((cfg0.win 1).blk t).view.emb p) = V c main_arg1 k
  refine congrArg _ (funext fun a => Fin.ext ?_)
  match a with
  | ⟨0, _⟩ => show win0_1.index t (0 : Fin 2) * 256 + 1 * (p 0).val = (k 0).val; omega
  | ⟨1, _⟩ => show win0_1.index t (1 : Fin 2) * 4096 + 1 * (p 1).val = (k 1).val; omega

/-- The gate's first scale factor's block at point t is its rows t·256 …. -/
private theorem blk2_apply (c : Dev nD) (t : Fin cfg0.N) (p : S256x4.Idx) (k : S14336x4.Idx)
    (hk0 : (k 0).val = t.val * 256 + (p 0).val) (hk1 : (k 1).val = (p 1).val) :
    (iblk0 V c 2 t : Vec Ideal S256x4 .f32) p = gsuArr V c k := by
  obtain ⟨-, -, -, -, e0, e1, -⟩ := index_facts t
  unfold iblk0
  rw [View.read_apply]
  show V c main_arg2 (((cfg0.win 2).blk t).view.emb p) = V c main_arg2 k
  refine congrArg _ (funext fun a => Fin.ext ?_)
  match a with
  | ⟨0, _⟩ => show win0_2.index t (0 : Fin 2) * 256 + 1 * (p 0).val = (k 0).val; omega
  | ⟨1, _⟩ => show win0_2.index t (1 : Fin 2) * 4 + 1 * (p 1).val = (k 1).val; omega

/-- The gate's second scale factor's block at any point is the whole factor. -/
private theorem blk3_apply (c : Dev nD) (t : Fin cfg0.N) (p : S4x4096.Idx) :
    (iblk0 V c 3 t : Vec Ideal S4x4096 .f32) p = gsvArr V c p := by
  obtain ⟨-, -, -, -, -, -, e0, e1, -⟩ := index_facts t
  unfold iblk0
  rw [View.read_apply]
  show V c main_arg3 (((cfg0.win 3).blk t).view.emb p) = V c main_arg3 p
  refine congrArg _ (funext fun a => Fin.ext ?_)
  match a with
  | ⟨0, _⟩ => show win0_3.index t (0 : Fin 2) * 4 + 1 * (p 0).val = (p 0).val; omega
  | ⟨1, _⟩ => show win0_3.index t (1 : Fin 2) * 4096 + 1 * (p 1).val = (p 1).val; omega

/-- The up weight's block at point t is rows t·256 … of the stored up weight. -/
private theorem blk4_apply (c : Dev nD) (t : Fin cfg0.N) (p : S256x4096.Idx) (k : S14336x4096.Idx)
    (hk0 : (k 0).val = t.val * 256 + (p 0).val) (hk1 : (k 1).val = (p 1).val) :
    (iblk0 V c 4 t : Vec Ideal S256x4096 .f32) p = uwArr V c k := by
  obtain ⟨-, -, -, -, -, -, -, -, e0, e1, -⟩ := index_facts t
  unfold iblk0
  rw [View.read_apply]
  show V c main_arg4 (((cfg0.win 4).blk t).view.emb p) = V c main_arg4 k
  refine congrArg _ (funext fun a => Fin.ext ?_)
  match a with
  | ⟨0, _⟩ => show win0_4.index t (0 : Fin 2) * 256 + 1 * (p 0).val = (k 0).val; omega
  | ⟨1, _⟩ => show win0_4.index t (1 : Fin 2) * 4096 + 1 * (p 1).val = (k 1).val; omega

/-- The up's first scale factor's block at point t is its rows t·256 …. -/
private theorem blk5_apply (c : Dev nD) (t : Fin cfg0.N) (p : S256x4.Idx) (k : S14336x4.Idx)
    (hk0 : (k 0).val = t.val * 256 + (p 0).val) (hk1 : (k 1).val = (p 1).val) :
    (iblk0 V c 5 t : Vec Ideal S256x4 .f32) p = usuArr V c k := by
  obtain ⟨-, -, -, -, -, -, -, -, -, -, e0, e1, -⟩ := index_facts t
  unfold iblk0
  rw [View.read_apply]
  show V c main_arg5 (((cfg0.win 5).blk t).view.emb p) = V c main_arg5 k
  refine congrArg _ (funext fun a => Fin.ext ?_)
  match a with
  | ⟨0, _⟩ => show win0_5.index t (0 : Fin 2) * 256 + 1 * (p 0).val = (k 0).val; omega
  | ⟨1, _⟩ => show win0_5.index t (1 : Fin 2) * 4 + 1 * (p 1).val = (k 1).val; omega

/-- The up's second scale factor's block at any point is the whole factor. -/
private theorem blk6_apply (c : Dev nD) (t : Fin cfg0.N) (p : S4x4096.Idx) :
    (iblk0 V c 6 t : Vec Ideal S4x4096 .f32) p = usvArr V c p := by
  obtain ⟨-, -, -, -, -, -, -, -, -, -, -, -, e0, e1, -⟩ := index_facts t
  unfold iblk0
  rw [View.read_apply]
  show V c main_arg6 (((cfg0.win 6).blk t).view.emb p) = V c main_arg6 p
  refine congrArg _ (funext fun a => Fin.ext ?_)
  match a with
  | ⟨0, _⟩ => show win0_6.index t (0 : Fin 2) * 4 + 1 * (p 0).val = (p 0).val; omega
  | ⟨1, _⟩ => show win0_6.index t (1 : Fin 2) * 4096 + 1 * (p 1).val = (p 1).val; omega

/-- What the body stores at entry p of its block, when its seven input blocks are those parts of the arrays the
    region found that point n reads, is the hidden array at the entry i where p lands: row the same, column n·256
    further on. Only row (i 1) of the weights and of their first factors matters, and that row is in the blocks. -/
private theorem point_value (c : Dev nD) (n : Nat)
    (b0 : Vec Ideal S1024x4096 .bf16) (b1 : Vec Ideal S256x4096 .f32) (b2 : Vec Ideal S256x4 .f32)
    (b3 : Vec Ideal S4x4096 .f32) (b4 : Vec Ideal S256x4096 .f32) (b5 : Vec Ideal S256x4 .f32)
    (b6 : Vec Ideal S4x4096 .f32)
    (h0 : ∀ p : S1024x4096.Idx, b0 p = xArr V c p)
    (h1 : ∀ (p : S256x4096.Idx) (k : S14336x4096.Idx), (k 0).val = n * 256 + (p 0).val → (k 1).val = (p 1).val →
      b1 p = gwArr V c k)
    (h2 : ∀ (p : S256x4.Idx) (k : S14336x4.Idx), (k 0).val = n * 256 + (p 0).val → (k 1).val = (p 1).val →
      b2 p = gsuArr V c k)
    (h3 : ∀ p : S4x4096.Idx, b3 p = gsvArr V c p)
    (h4 : ∀ (p : S256x4096.Idx) (k : S14336x4096.Idx), (k 0).val = n * 256 + (p 0).val → (k 1).val = (p 1).val →
      b4 p = uwArr V c k)
    (h5 : ∀ (p : S256x4.Idx) (k : S14336x4.Idx), (k 0).val = n * 256 + (p 0).val → (k 1).val = (p 1).val →
      b5 p = usuArr V c k)
    (h6 : ∀ p : S4x4096.Idx, b6 p = usvArr V c p)
    (p : S1024x256.Idx) (i : S1024x14336.Idx) (hi0 : (i 0).val = (p 0).val) (hi1 : (i 1).val = n * 256 + (p 1).val) :
    k0_pay1 b0 b2 b3 b1 b5 b6 b4 p = hiddenOf V c i := by
  obtain ⟨r, j, rfl⟩ : ∃ (r : Fin 1024) (j : Fin 256), p = ix2 r j := ⟨p 0, p 1, eq_ix2 p⟩
  obtain ⟨a, b, rfl⟩ : ∃ (a : Fin 1024) (b : Fin 14336), i = ix2 a b := ⟨i 0, i 1, eq_ix2 i⟩
  have ha : a = r := Fin.ext hi0
  have hb : b.val = n * 256 + j.val := hi1
  subst ha
  refine (pay_apply b0 b2 b3 b1 b5 b6 b4 a j).trans ?_
  unfold hiddenOf
  show Cert.ScaledMlp.hidden (fun h => b0 (ix2 a h)) (weff (cur2 b1) (cur2 b2) (cur2 b3)) (weff (cur2 b4) (cur2 b5) (cur2 b6)) j
    = Cert.ScaledMlp.hidden (fun h => xArr V c (ix2 a h))
        (weff (cur2 (gwArr V c)) (cur2 (gsuArr V c)) (cur2 (gsvArr V c)))
        (weff (cur2 (uwArr V c)) (cur2 (usuArr V c)) (cur2 (usvArr V c))) b
  refine hidden_congr _ _ _ _ _ _ j b (fun h => h0 (ix2 a h)) (fun h => ?_) (fun h => ?_)
  · exact weff_congr _ _ _ _ _ _ j b h (h1 (ix2 j h) (ix2 b h) hb rfl) (fun q => h2 (ix2 j q) (ix2 b q) hb rfl)
      (fun q => h3 (ix2 q h))
  · exact weff_congr _ _ _ _ _ _ j b h (h4 (ix2 j h) (ix2 b h) hb rfl) (fun q => h5 (ix2 j q) (ix2 b q) hb rfl)
      (fun q => h6 (ix2 q h))

/-- What point t writes back is its block of the hidden array. -/
private theorem flushed_eq (c : Dev nD) (t : Fin cfg0.N) :
    (dat0 (F := Ideal) V c).flushed 7 t = ((cfg0.win 7).blk t).view.read (Elt Ideal) (hiddenOf V c) := by
  show (cfg0.win 7).cut (grid0.coords t) ((dat0 V c).after 7 t) = _
  rw [after0_7]
  unfold out0_7
  rw [View.canon_unit_zero zero_offsets]
  simp only [View.ld_unit_zero (S := S1024x4096) zero_offsets, View.ld_unit_zero (S := S256x4096) zero_offsets,
    View.ld_unit_zero (S := S256x4) zero_offsets, View.ld_unit_zero (S := S4x4096) zero_offsets]
  obtain ⟨-, -, -, -, -, -, -, -, -, -, -, -, -, -, e0, e1⟩ := index_facts t
  funext y
  rw [View.read_apply]
  refine point_value V c t.val (iblk0 V c 0 t) (iblk0 V c 1 t) (iblk0 V c 2 t) (iblk0 V c 3 t) (iblk0 V c 4 t)
    (iblk0 V c 5 t) (iblk0 V c 6 t) (blk0_apply V c t) (blk1_apply V c t) (blk2_apply V c t) (blk3_apply V c t)
    (blk4_apply V c t) (blk5_apply V c t) (blk6_apply V c t) ((cfg0.win 7).xinj (grid0.coords t) y)
    (((cfg0.win 7).blk t).view.emb y) ?_ ?_
  · show win0_7.index t (0 : Fin 2) * 1024 + 1 * (y (0 : Fin 2)).val = (y (0 : Fin 2)).val
    omega
  · show win0_7.index t (1 : Fin 2) * 256 + 1 * (y (1 : Fin 2)).val = t.val * 256 + (y (1 : Fin 2)).val
    omega

/-! ## The 56 column blocks cover the hidden array -/

/-- An entry of the hidden array is in point t's block when each coordinate is in the block's range on its axis. -/
private theorem mem_block (t : Fin cfg0.N) (i : S1024x14336.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v3).slice (win0_7.rect t)).set ↔ _
  rw [View.set_slice_whole, Rect.mem_set_unit]
  exact Iff.rfl

/-- Column i of the hidden array is written back by point i / 256. -/
private theorem covered (i : S1024x14336.Idx) :
    ∃ t : Fin cfg0.N, (cfg0.win 7).flush t = true ∧ i ∈ ((cfg0.win 7).blk t).view.set := by
  have hi0 : (i 0).val < 1024 := (i 0).isLt
  have hi1 : (i 1).val < 14336 := (i 1).isLt
  have hN : cfg0.N = 56 := N_0
  have ht : (i 1).val / 256 < cfg0.N := by omega
  obtain ⟨-, -, -, -, -, -, -, -, -, -, -, -, -, -, e0, e1⟩ := index_facts ⟨(i 1).val / 256, ht⟩
  have e1' : win0_7.index ⟨(i 1).val / 256, ht⟩ (1 : Fin 2) = (i 1).val / 256 := e1
  refine ⟨⟨(i 1).val / 256, ht⟩, flush0_7 _, ?_⟩
  rw [mem_block]
  intro a
  match a with
  | ⟨0, _⟩ =>
    show win0_7.index ⟨(i 1).val / 256, ht⟩ (0 : Fin 2) * 1024 ≤ (i 0).val
      ∧ (i 0).val < win0_7.index ⟨(i 1).val / 256, ht⟩ (0 : Fin 2) * 1024 + 1024
    omega
  | ⟨1, _⟩ =>
    show win0_7.index ⟨(i 1).val / 256, ht⟩ (1 : Fin 2) * 256 ≤ (i 1).val
      ∧ (i 1).val < win0_7.index ⟨(i 1).val / 256, ht⟩ (1 : Fin 2) * 256 + 256
    omega

/-- After the first region its result array holds the hidden array of the arrays the region found. -/
theorem hidden_arr (c : Dev nD) : (dat0 (F := Ideal) V c).arrAt 7 cfg0.N = hiddenOf V c :=
  (dat0 (F := Ideal) V c).arrAt_eq_of_cover 7 (hiddenOf V c) (fun t _ => flushed_eq V c t) covered

end Cert.KernelIdeal.GateUp

end
-- ==== Proof.DownBody.lean ====
import proofs.«141312_j57269093925327_1_alg».proof.Proof.RegionSpec
import Idealize.ShloMosaic.Lib.Pipeline.Value
import Idealize.ShloMosaic.PureOps.Ideal.Laws

noncomputable section

open scoped BigOperators

namespace Cert.KernelIdeal.DownBody

open Cert.KernelIdeal Cert.KernelIdeal.Gen Cert.ScaledMlp Cert.KernelIdeal.RegionSpec
open Idealize.ShloMosaic Idealize.ShloMosaic.TcCoe Idealize.SL.Sem Idealize.ShloMosaic.ValueIdx
open Idealize.ShloMosaic.Pipeline (Dat)

/-- The zero offsets of a whole-block rectangle. -/
private theorem hz : (![0, 0] : Fin 2 → Nat) = fun _ => 0 := funext fun a => by fin_cases a <;> rfl

/-! ## What each case's stores leave: the accumulating store's value over the point's blocks -/

section Pieces
variable {F : FTy → Type} [FloatOps F]

/-- A later point: the one covering store's value, its loads reading the whole staging buffers. -/
private theorem piece_B (c : Dev nD) (i : grid1.Coords) (arg1 : Memref sig .tc .vmem S1024x128 .bf16) (harg1 : arg1.IsWhole) (arg2 : Memref sig .tc .vmem S4096x128 .f32) (harg2 : arg2.IsWhole) (arg3 : Memref sig .tc .vmem S4x4096 .f32) (harg3 : arg3.IsWhole) (arg4 : Memref sig .tc .vmem S4x128 .f32) (harg4 : arg4.IsWhole) (arg5 : Memref sig .tc .vmem S1024x4096 .f32) (harg5 : arg5.IsWhole) (hc0 : ¬cond1_0 i)
    (x0 : Vec F S1024x128 .bf16) (x1 : Vec F S4096x128 .f32) (x2 : Vec F S4x4096 .f32) (x3 : Vec F S4x128 .f32)
    (xo : Vec F S1024x4096 .f32) :
    out1_B_4 c i arg1 harg1 arg2 harg2 arg3 harg3 arg4 harg4 arg5 harg5 hc0 x0 x1 x2 x3 xo = k1_pay2 x2 x3 x1 x0 xo := by
  unfold out1_B_4
  rw [View.read_writes_eq_canon _ _ _ (cover1_B_4 c i arg1 harg1 arg2 harg2 arg3 harg3 arg4 harg4 arg5 harg5 hc0 x0 x1 x2 x3 xo)]
  unfold kernelRun1_B
  dsimp only
  sl_unfold_words
  rw [View.canon_unit_zero hz]
  simp only [View.readAt_eq_ld, harg1.read_unread, harg2.read_unread, harg3.read_unread, harg4.read_unread,
    harg5.read_unread, View.ld_unit_zero (S := S1024x128) hz, View.ld_unit_zero (S := S4096x128) hz,
    View.ld_unit_zero (S := S4x4096) hz, View.ld_unit_zero (S := S4x128) hz, View.ld_unit_zero (S := S1024x4096) hz]

/-- The first point: the later of the two stores covers, and the accumulator it adds to is the zero block the
    earlier store left, read back. -/
private theorem piece_A (c : Dev nD) (i : grid1.Coords) (arg1 : Memref sig .tc .vmem S1024x128 .bf16) (harg1 : arg1.IsWhole) (arg2 : Memref sig .tc .vmem S4096x128 .f32) (harg2 : arg2.IsWhole) (arg3 : Memref sig .tc .vmem S4x4096 .f32) (harg3 : arg3.IsWhole) (arg4 : Memref sig .tc .vmem S4x128 .f32) (harg4 : arg4.IsWhole) (arg5 : Memref sig .tc .vmem S1024x4096 .f32) (harg5 : arg5.IsWhole) (hc0 : cond1_0 i)
    (x0 : Vec F S1024x128 .bf16) (x1 : Vec F S4096x128 .f32) (x2 : Vec F S4x4096 .f32) (x3 : Vec F S4x128 .f32) :
    out1_A_4 c i arg1 harg1 arg2 harg2 arg3 harg3 arg4 harg4 arg5 harg5 hc0 x0 x1 x2 x3 = k1_pay2 x2 x3 x1 x0 (k1_pay1 (F := F)) := by
  unfold out1_A_4
  rw [View.read_writes_eq_canon _ _ _ (cover1_A_4 c i arg1 harg1 arg2 harg2 arg3 harg3 arg4 harg4 arg5 harg5 hc0 x0 x1 x2 x3)]
  unfold kernelRun1_A
  dsimp only
  sl_unfold_words
  rw [View.canon_cons_unit_zero (S := S1024x4096) hz]
  simp only [View.readAt_eq_ld, harg1.read_unread, harg2.read_unread, harg3.read_unread, harg4.read_unread,
    View.ld_unit_zero (S := S1024x128) hz, View.ld_unit_zero (S := S4096x128) hz,
    View.ld_unit_zero (S := S4x4096) hz, View.ld_unit_zero (S := S4x128) hz, View.readCov_unit_zero (S := S1024x4096) _ hz]

end Pieces

/-! ## The two contractions read at an index -/

-- The scale's contraction [4, 4096] × [4, 128] → [4096, 128] contracts axis 0 of both operands.
private theorem lhs_scale_0 (i : S4096x128.Idx) (q : dot_S4x4096_S4x128_S4096x128_0_0_1_1_n_n.contr.Idx) :
    (dot_S4x4096_S4x128_S4096x128_0_0_1_1_n_n.lhsIdx i q 0).val = (q ⟨0, by decide⟩).val :=
  dot_S4x4096_S4x128_S4096x128_0_0_1_1_n_n.lhsIdx_val_of_single rfl i q
private theorem lhs_scale_1 (i : S4096x128.Idx) (q : dot_S4x4096_S4x128_S4096x128_0_0_1_1_n_n.contr.Idx) :
    (dot_S4x4096_S4x128_S4096x128_0_0_1_1_n_n.lhsIdx i q 1).val = (i 0).val := by
  unfold DotDims.lhsIdx
  rw [dif_neg (show ¬(1 : Fin S4x4096.rank) ∈ dot_S4x4096_S4x128_S4096x128_0_0_1_1_n_n.lhsBatch by decide), dif_pos (show (1 : Fin S4x4096.rank) ∈ dot_S4x4096_S4x128_S4096x128_0_0_1_1_n_n.lhsNonContracting by decide)]
  rfl
private theorem rhs_scale_0 (i : S4096x128.Idx) (q : dot_S4x4096_S4x128_S4096x128_0_0_1_1_n_n.contr.Idx) :
    (dot_S4x4096_S4x128_S4096x128_0_0_1_1_n_n.rhsIdx i q 0).val = (q ⟨0, by decide⟩).val :=
  dot_S4x4096_S4x128_S4096x128_0_0_1_1_n_n.rhsIdx_val_of_single rfl i q
private theorem rhs_scale_1 (i : S4096x128.Idx) (q : dot_S4x4096_S4x128_S4096x128_0_0_1_1_n_n.contr.Idx) :
    (dot_S4x4096_S4x128_S4096x128_0_0_1_1_n_n.rhsIdx i q 1).val = (i 1).val := by
  unfold DotDims.rhsIdx
  rw [dif_neg (show ¬(1 : Fin S4x128.rank) ∈ dot_S4x4096_S4x128_S4096x128_0_0_1_1_n_n.rhsBatch by decide), dif_pos (show (1 : Fin S4x128.rank) ∈ dot_S4x4096_S4x128_S4096x128_0_0_1_1_n_n.rhsNonContracting by decide)]
  rfl

/-- Entry (h, j) of the scale block: Σ_q l(q, h) · r(q, j). -/
private theorem scale_apply (l : FVec Ideal S4x4096 .bf16) (r : FVec Ideal S4x128 .bf16) (h : Fin 4096) (j : Fin 128) :
    matmul dot_S4x4096_S4x128_S4096x128_0_0_1_1_n_n none l r (constant S4096x128 .f32 0x00000000#32) (ix2 h j)
      = ∑ q : Fin 4, l (ix2 q h) * r (ix2 q j) := by
  refine (Ideal.matmul_constant_zero_apply dot_S4x4096_S4x128_S4096x128_0_0_1_1_n_n none l r (ix2 h j)).trans ?_
  rw [← Equiv.sum_comp (ValueIdx.contrEquiv1 dot_S4x4096_S4x128_S4096x128_0_0_1_1_n_n 4 rfl rfl).symm]
  refine Finset.sum_congr rfl fun k _ => ?_
  have hk := ValueIdx.contrEquiv1_symm_val dot_S4x4096_S4x128_S4096x128_0_0_1_1_n_n 4 rfl rfl k
  have el : dot_S4x4096_S4x128_S4096x128_0_0_1_1_n_n.lhsIdx (ix2 h j) ((ValueIdx.contrEquiv1 dot_S4x4096_S4x128_S4096x128_0_0_1_1_n_n 4 rfl rfl).symm k) = ix2 k h := funext fun a => Fin.ext (by
    match a with
    | ⟨0, _⟩ => exact (lhs_scale_0 _ _).trans hk
    | ⟨1, _⟩ => exact lhs_scale_1 _ _)
  have er : dot_S4x4096_S4x128_S4096x128_0_0_1_1_n_n.rhsIdx (ix2 h j) ((ValueIdx.contrEquiv1 dot_S4x4096_S4x128_S4096x128_0_0_1_1_n_n 4 rfl rfl).symm k) = ix2 k j := funext fun a => Fin.ext (by
    match a with
    | ⟨0, _⟩ => exact (rhs_scale_0 _ _).trans hk
    | ⟨1, _⟩ => exact rhs_scale_1 _ _)
  rw [el, er]

-- The product's contraction [1024, 128] × [4096, 128] → [1024, 4096] contracts axis 1 of both operands.
private theorem lhs_prod_0 (i : S1024x4096.Idx) (q : dot_S1024x128_S4096x128_S1024x4096_1_1_0_0_n_n.contr.Idx) :
    (dot_S1024x128_S4096x128_S1024x4096_1_1_0_0_n_n.lhsIdx i q 0).val = (i 0).val := by
  unfold DotDims.lhsIdx
  rw [dif_neg (show ¬(0 : Fin S1024x128.rank) ∈ dot_S1024x128_S4096x128_S1024x4096_1_1_0_0_n_n.lhsBatch by decide), dif_pos (show (0 : Fin S1024x128.rank) ∈ dot_S1024x128_S4096x128_S1024x4096_1_1_0_0_n_n.lhsNonContracting by decide)]
  rfl
private theorem lhs_prod_1 (i : S1024x4096.Idx) (q : dot_S1024x128_S4096x128_S1024x4096_1_1_0_0_n_n.contr.Idx) :
    (dot_S1024x128_S4096x128_S1024x4096_1_1_0_0_n_n.lhsIdx i q 1).val = (q ⟨0, by decide⟩).val :=
  dot_S1024x128_S4096x128_S1024x4096_1_1_0_0_n_n.lhsIdx_val_of_single rfl i q
private theorem rhs_prod_0 (i : S1024x4096.Idx) (q : dot_S1024x128_S4096x128_S1024x4096_1_1_0_0_n_n.contr.Idx) :
    (dot_S1024x128_S4096x128_S1024x4096_1_1_0_0_n_n.rhsIdx i q 0).val = (i 1).val := by
  unfold DotDims.rhsIdx
  rw [dif_neg (show ¬(0 : Fin S4096x128.rank) ∈ dot_S1024x128_S4096x128_S1024x4096_1_1_0_0_n_n.rhsBatch by decide), dif_pos (show (0 : Fin S4096x128.rank) ∈ dot_S1024x128_S4096x128_S1024x4096_1_1_0_0_n_n.rhsNonContracting by decide)]
  rfl
private theorem rhs_prod_1 (i : S1024x4096.Idx) (q : dot_S1024x128_S4096x128_S1024x4096_1_1_0_0_n_n.contr.Idx) :
    (dot_S1024x128_S4096x128_S1024x4096_1_1_0_0_n_n.rhsIdx i q 1).val = (q ⟨0, by decide⟩).val :=
  dot_S1024x128_S4096x128_S1024x4096_1_1_0_0_n_n.rhsIdx_val_of_single rfl i q

/-- Entry (r, h) of the product block: Σ_j l(r, j) · w(h, j). -/
private theorem prod_apply (l : FVec Ideal S1024x128 .bf16) (w : FVec Ideal S4096x128 .bf16) (r : Fin 1024) (h : Fin 4096) :
    matmul dot_S1024x128_S4096x128_S1024x4096_1_1_0_0_n_n none l w (constant S1024x4096 .f32 0x00000000#32) (ix2 r h)
      = ∑ j : Fin 128, l (ix2 r j) * w (ix2 h j) := by
  refine (Ideal.matmul_constant_zero_apply dot_S1024x128_S4096x128_S1024x4096_1_1_0_0_n_n none l w (ix2 r h)).trans ?_
  rw [← Equiv.sum_comp (ValueIdx.contrEquiv1 dot_S1024x128_S4096x128_S1024x4096_1_1_0_0_n_n 128 rfl rfl).symm]
  refine Finset.sum_congr rfl fun k _ => ?_
  have hk := ValueIdx.contrEquiv1_symm_val dot_S1024x128_S4096x128_S1024x4096_1_1_0_0_n_n 128 rfl rfl k
  have el : dot_S1024x128_S4096x128_S1024x4096_1_1_0_0_n_n.lhsIdx (ix2 r h) ((ValueIdx.contrEquiv1 dot_S1024x128_S4096x128_S1024x4096_1_1_0_0_n_n 128 rfl rfl).symm k) = ix2 r k := funext fun a => Fin.ext (by
    match a with
    | ⟨0, _⟩ => exact lhs_prod_0 _ _
    | ⟨1, _⟩ => exact (lhs_prod_1 _ _).trans hk)
  have er : dot_S1024x128_S4096x128_S1024x4096_1_1_0_0_n_n.rhsIdx (ix2 r h) ((ValueIdx.contrEquiv1 dot_S1024x128_S4096x128_S1024x4096_1_1_0_0_n_n 128 rfl rfl).symm k) = ix2 h k := funext fun a => Fin.ext (by
    match a with
    | ⟨0, _⟩ => exact rhs_prod_0 _ _
    | ⟨1, _⟩ => exact (rhs_prod_1 _ _).trans hk)
  rw [el, er]

/-! ## The accumulating store's value at an index -/

/-- Entry (r, h): the accumulator there plus Σ_j d(r, j) · (w(h, j) · Σ_q suT(q, h) · sv(q, j)); the changes of
    format and the same-shape casts are the identity on extended reals. -/
private theorem pay2_apply (v3 : Vec Ideal S4x4096 .f32) (v6 : Vec Ideal S4x128 .f32) (v9 : Vec Ideal S4096x128 .f32)
    (v12 : Vec Ideal S1024x128 .bf16) (v15 : Vec Ideal S1024x4096 .f32) (r : Fin 1024) (h : Fin 4096) :
    k1_pay2 v3 v6 v9 v12 v15 (ix2 r h)
      = v15 (ix2 r h) + ∑ j : Fin 128, v12 (ix2 r j) * (v9 (ix2 h j) * ∑ q : Fin 4, v3 (ix2 q h) * v6 (ix2 q j)) := by
  unfold k1_pay2
  refine (addf_apply _ _ (ix2 r h)).trans ?_
  refine congrArg₂ (· + ·) (congrFun (shapeCast_self v15 _) (ix2 r h)) ?_
  refine (prod_apply _ _ r h).trans ?_
  refine Finset.sum_congr rfl fun j _ => ?_
  refine congrArg₂ (· * ·) (congrFun (shapeCast_self v12 _) (ix2 r j)) ?_
  refine (mulf_apply v9 _ (ix2 h j)).trans ?_
  refine congrArg (v9 (ix2 h j) * ·) ?_
  refine (scale_apply _ _ h j).trans ?_
  refine Finset.sum_congr rfl fun q _ => ?_
  exact congrArg (· * v6 (ix2 q j)) (congrFun (shapeCast_self v3 _) (ix2 q h))

/-! ## The two cases -/

/-- The first grid point: the body stores the zero block, reads it back and adds the point's contribution. -/
theorem out_A (c : Dev nD) (i : grid1.Coords) (arg1 : Memref sig .tc .vmem S1024x128 .bf16) (harg1 : arg1.IsWhole) (arg2 : Memref sig .tc .vmem S4096x128 .f32) (harg2 : arg2.IsWhole) (arg3 : Memref sig .tc .vmem S4x4096 .f32) (harg3 : arg3.IsWhole) (arg4 : Memref sig .tc .vmem S4x128 .f32) (harg4 : arg4.IsWhole) (arg5 : Memref sig .tc .vmem S1024x4096 .f32) (harg5 : arg5.IsWhole) (hc0 : cond1_0 i)
    (x0 : Vec Ideal S1024x128 .bf16) (x1 : Vec Ideal S4096x128 .f32) (x2 : Vec Ideal S4x4096 .f32) (x3 : Vec Ideal S4x128 .f32) :
    out1_A_4 (F := Ideal) c i arg1 harg1 arg2 harg2 arg3 harg3 arg4 harg4 arg5 harg5 hc0 x0 x1 x2 x3 = (fun y => 0 + partialOf x0 x1 x2 x3 y : A2 1024 4096) := by
  refine (piece_A (F := Ideal) c i arg1 harg1 arg2 harg2 arg3 harg3 arg4 harg4 arg5 harg5 hc0 x0 x1 x2 x3).trans ?_
  funext y
  obtain ⟨r, h, rfl⟩ : ∃ (r : Fin 1024) (h : Fin 4096), y = ix2 r h := ⟨y 0, y 1, eq_ix2 y⟩
  refine (pay2_apply x2 x3 x1 x0 (k1_pay1 (F := Ideal)) r h).trans ?_
  -- the zero block's entry is the extended real 0
  refine congrArg₂ (· + ·) ?_ rfl
  exact Ideal.ofBits_zero_f32

/-- Every later grid point: the body adds the point's contribution to what the point before left. -/
theorem out_B (c : Dev nD) (i : grid1.Coords) (arg1 : Memref sig .tc .vmem S1024x128 .bf16) (harg1 : arg1.IsWhole) (arg2 : Memref sig .tc .vmem S4096x128 .f32) (harg2 : arg2.IsWhole) (arg3 : Memref sig .tc .vmem S4x4096 .f32) (harg3 : arg3.IsWhole) (arg4 : Memref sig .tc .vmem S4x128 .f32) (harg4 : arg4.IsWhole) (arg5 : Memref sig .tc .vmem S1024x4096 .f32) (harg5 : arg5.IsWhole) (hc0 : ¬cond1_0 i)
    (x0 : Vec Ideal S1024x128 .bf16) (x1 : Vec Ideal S4096x128 .f32) (x2 : Vec Ideal S4x4096 .f32) (x3 : Vec Ideal S4x128 .f32)
    (xo : Vec Ideal S1024x4096 .f32) :
    out1_B_4 (F := Ideal) c i arg1 harg1 arg2 harg2 arg3 harg3 arg4 harg4 arg5 harg5 hc0 x0 x1 x2 x3 xo = (fun y => (xo : A2 1024 4096) y + partialOf x0 x1 x2 x3 y : A2 1024 4096) := by
  refine (piece_B (F := Ideal) c i arg1 harg1 arg2 harg2 arg3 harg3 arg4 harg4 arg5 harg5 hc0 x0 x1 x2 x3 xo).trans ?_
  funext y
  obtain ⟨r, h, rfl⟩ : ∃ (r : Fin 1024) (h : Fin 4096), y = ix2 r h := ⟨y 0, y 1, eq_ix2 y⟩
  exact pay2_apply x2 x3 x1 x0 xo r h

end Cert.KernelIdeal.DownBody

end
-- ==== Proof.Down.lean ====
import proofs.«141312_j57269093925327_1_alg».proof.Proof.DownBody
import Idealize.ShloMosaic.Lib.Pipeline.Value

noncomputable section

open scoped BigOperators

namespace Cert.KernelIdeal.Down

open Cert.KernelIdeal Cert.KernelIdeal.Gen Cert.ScaledMlp Cert.KernelIdeal.RegionSpec Cert.KernelIdeal.DownBody
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Where a block's entry sits in its array

At grid point t the hidden array's block is its columns 128·t … 128·t + 127 (all 1024 rows); the stored down weight's
block is the same run of columns of its 4096 rows; the second scale factor's block is that run of columns of its 4
rows; the transposed first scale factor is read whole at every point, and the output block is the whole output. -/

/-- The block indices of the five windows at every grid point. -/
private theorem idx_facts : ∀ t : Fin cfg1.N,
    (win1_0.index t 0 = 0 ∧ win1_0.index t 1 = t.val) ∧ (win1_1.index t 0 = 0 ∧ win1_1.index t 1 = t.val)
    ∧ (win1_2.index t 0 = 0 ∧ win1_2.index t 1 = 0) ∧ (win1_3.index t 0 = 0 ∧ win1_3.index t 1 = t.val)
    ∧ (win1_4.index t 0 = 0 ∧ win1_4.index t 1 = 0) :=
  (by decide +kernel : ∀ t : Fin grid1.N,
    (win1_0.index t 0 = 0 ∧ win1_0.index t 1 = t.val) ∧ (win1_1.index t 0 = 0 ∧ win1_1.index t 1 = t.val)
    ∧ (win1_2.index t 0 = 0 ∧ win1_2.index t 1 = 0) ∧ (win1_3.index t 0 = 0 ∧ win1_3.index t 1 = t.val)
    ∧ (win1_4.index t 0 = 0 ∧ win1_4.index t 1 = 0))

/-! The four input blocks of a point, each at its literal type. -/
private abbrev hidBlk (c : Dev nD) (t : Fin cfg1.N) : A2 1024 128 := iblk1 V c 0 t
private abbrev dwBlk (c : Dev nD) (t : Fin cfg1.N) : A2 4096 128 := iblk1 V c 1 t
private abbrev dsuTBlk (c : Dev nD) (t : Fin cfg1.N) : A2 4 4096 := iblk1 V c 2 t
private abbrev dsvBlk (c : Dev nD) (t : Fin cfg1.N) : A2 4 128 := iblk1 V c 3 t

/-- Entry (r, j) of the hidden block at point t is entry (r, 128·t + j) of the hidden array. -/
private theorem hid_blk (c : Dev nD) (t : Fin cfg1.N) (r : Fin 1024) (j : Fin 128) (h : 128 * t.val + j.val < 14336) :
    hidBlk V c t (ix2 r j) = hidArr V c (ix2 r ⟨128 * t.val + j.val, h⟩) := by
  unfold hidBlk iblk1
  rw [View.read_apply]
  show V c main_v3 _ = V c main_v3 _
  congr 1
  funext a
  apply Fin.ext
  match a with
  | ⟨0, _⟩ => show win1_0.index t 0 * 1024 + 1 * r.val = r.val; rw [(idx_facts t).1.1]; omega
  | ⟨1, _⟩ => show win1_0.index t 1 * 128 + 1 * j.val = 128 * t.val + j.val; rw [(idx_facts t).1.2]; omega

/-- Entry (o, j) of the stored down-weight block at point t is entry (o, 128·t + j) of the stored down weight. -/
private theorem dw_blk (c : Dev nD) (t : Fin cfg1.N) (o : Fin 4096) (j : Fin 128) (h : 128 * t.val + j.val < 14336) :
    dwBlk V c t (ix2 o j) = dwArr V c (ix2 o ⟨128 * t.val + j.val, h⟩) := by
  unfold dwBlk iblk1
  rw [View.read_apply]
  show V c main_arg7 _ = V c main_arg7 _
  congr 1
  funext a
  apply Fin.ext
  match a with
  | ⟨0, _⟩ => show win1_1.index t 0 * 4096 + 1 * o.val = o.val; rw [(idx_facts t).2.1.1]; omega
  | ⟨1, _⟩ => show win1_1.index t 1 * 128 + 1 * j.val = 128 * t.val + j.val; rw [(idx_facts t).2.1.2]; omega

/-- The transposed first scale factor is read whole at every point. -/
private theorem dsuT_blk (c : Dev nD) (t : Fin cfg1.N) (q : Fin 4) (o : Fin 4096) :
    dsuTBlk V c t (ix2 q o) = dsuTArr V c (ix2 q o) := by
  unfold dsuTBlk iblk1
  rw [View.read_apply]
  show V c main_v2 _ = V c main_v2 _
  congr 1
  funext a
  apply Fin.ext
  match a with
  | ⟨0, _⟩ => show win1_2.index t 0 * 4 + 1 * q.val = q.val; rw [(idx_facts t).2.2.1.1]; omega
  | ⟨1, _⟩ => show win1_2.index t 1 * 4096 + 1 * o.val = o.val; rw [(idx_facts t).2.2.1.2]; omega

/-- Entry (q, j) of the second scale factor's block at point t is entry (q, 128·t + j) of that factor. -/
private theorem dsv_blk (c : Dev nD) (t : Fin cfg1.N) (q : Fin 4) (j : Fin 128) (h : 128 * t.val + j.val < 14336) :
    dsvBlk V c t (ix2 q j) = dsvArr V c (ix2 q ⟨128 * t.val + j.val, h⟩) := by
  unfold dsvBlk iblk1
  rw [View.read_apply]
  show V c main_arg9 _ = V c main_arg9 _
  congr 1
  funext a
  apply Fin.ext
  match a with
  | ⟨0, _⟩ => show win1_3.index t 0 * 4 + 1 * q.val = q.val; rw [(idx_facts t).2.2.2.1.1]; omega
  | ⟨1, _⟩ => show win1_3.index t 1 * 128 + 1 * j.val = 128 * t.val + j.val; rw [(idx_facts t).2.2.2.1.2]; omega

/-! ## One point's contribution is one run of 128 terms of the down projection -/

/-- Term n of the down projection at output entry (r, o): hidden unit n of row r times the effective down weight. -/
private def term (c : Dev nD) (r : Fin 1024) (o : Fin 4096) (n : Fin 14336) : EReal :=
  hidArr V c (ix2 r n) * weff (cur2 (dwArr V c)) (cur2T (dsuTArr V c)) (cur2 (dsvArr V c)) o n

/-- The s-th run of 128 consecutive terms, summed: what point s adds to the accumulator (zero past the last run). -/
private def addend (c : Dev nD) (s : Nat) : A2 1024 4096 := fun y =>
  ∑ j : Fin 128, ext0 (term V c (y 0) (y 1)) (128 * s + j.val)

private theorem partial_eq (c : Dev nD) (t : Fin cfg1.N) (y : (⟨2, ![1024, 4096]⟩ : Shape).Idx) :
    partialOf (hidBlk V c t) (dwBlk V c t) (dsuTBlk V c t) (dsvBlk V c t) y = addend V c t.val y := by
  have hN : t.val < 112 := lt_of_lt_of_eq t.isLt (show cfg1.N = 112 from N_1)
  unfold partialOf addend
  refine Finset.sum_congr rfl fun j _ => ?_
  have hj : 128 * t.val + j.val < 14336 := by have := j.isLt; omega
  rw [ext0_of_lt _ _ hj]
  exact congrArg₂ (· * ·) (hid_blk V c t (y 0) j hj)
    (congrArg₂ (· * ·) (dw_blk V c t (y 1) j hj)
      (Finset.sum_congr rfl fun q _ => congrArg₂ (· * ·) (dsuT_blk V c t q (y 1)) (dsv_blk V c t q j hj)))

/-! ## The accumulator after each point, and after the last

The first point leaves 0 plus its run; every later point adds its run to what the point before left. So after the
last of the 112 points the accumulator holds 0 plus the 112 runs in order, and a sum over the 14336 hidden units is
the sum of its 112 consecutive runs of 128. -/

/-- At the first point the accumulator is reset: it leaves zero plus the point's run. -/
private theorem outs_first (c : Dev nD) (t : Fin cfg1.N) (h0 : t.val % 112 = 0) :
    outsAt1 V c t.val t.isLt = (fun y => 0 + addend V c t.val y : A2 1024 4096) :=
  (outsAt1_A V c t h0).trans
    ((out_A c (grid1.coords t) (ms1_0 t) (hs1_0 t) (ms1_1 t) (hs1_1 t) (ms1_2 t) (hs1_2 t) (ms1_3 t) (hs1_3 t)
        (ms1_4 t) (hs1_4 t) ((hcond1_0 t).mpr h0) (iblk1 V c 0 t) (iblk1 V c 1 t) (iblk1 V c 2 t) (iblk1 V c 3 t)).trans
      (funext fun y => congrArg (fun z : EReal => 0 + z) (partial_eq V c t y)))

/-- At every later point the point's run is added to what the point before left. -/
private theorem outs_later (c : Dev nD) (t : Fin cfg1.N) (h0 : ¬t.val % 112 = 0) :
    outsAt1 V c t.val t.isLt
      = (fun y => (outsAt1 V c (t.val - 1) (Nat.lt_of_le_of_lt (Nat.sub_le _ _) t.isLt) : A2 1024 4096) y
          + addend V c t.val y : A2 1024 4096) :=
  (outsAt1_B V c t h0).trans
    ((out_B c (grid1.coords t) (ms1_0 t) (hs1_0 t) (ms1_1 t) (hs1_1 t) (ms1_2 t) (hs1_2 t) (ms1_3 t) (hs1_3 t)
        (ms1_4 t) (hs1_4 t) (fun h => h0 ((hcond1_0 t).mp h)) (iblk1 V c 0 t) (iblk1 V c 1 t) (iblk1 V c 2 t)
        (iblk1 V c 3 t) (outsAt1 V c (t.val - 1) (Nat.lt_of_le_of_lt (Nat.sub_le _ _) t.isLt))).trans
      (funext fun y => congrArg
        (fun z : EReal => (outsAt1 V c (t.val - 1) (Nat.lt_of_le_of_lt (Nat.sub_le _ _) t.isLt) : A2 1024 4096) y + z)
        (partial_eq V c t y)))

/-- The accumulator, point by point, at its literal type. -/
private abbrev outs (c : Dev nD) : (n : Nat) → n < cfg1.N → A2 1024 4096 := outsAt1 V c
/-- What a resetting point leaves. -/
private def rst (c : Dev nD) : (n : Nat) → n < cfg1.N → A2 1024 4096 := fun n _ y => 0 + addend V c n y
/-- What an adding point makes of what it finds. -/
private def stp (c : Dev nD) : (n : Nat) → n < cfg1.N → A2 1024 4096 → A2 1024 4096 := fun n _ acc y => acc y + addend V c n y

private theorem outs_reset (c : Dev nD) (n : Nat) (h : n < cfg1.N) (hn : n % 112 = 0) : outs V c n h = rst V c n h :=
  outs_first V c ⟨n, h⟩ hn

private theorem outs_step (c : Dev nD) (n : Nat) (h : n + 1 < cfg1.N) (hn : ¬(n + 1) % 112 = 0) :
    outs V c (n + 1) h = stp V c (n + 1) h (outs V c n (Nat.lt_of_succ_lt h)) :=
  outs_later V c ⟨n + 1, h⟩ hn

/-- After the last point the accumulator holds the whole down projection. -/
private theorem outs_last (c : Dev nD) (h : 111 < cfg1.N) : outsAt1 V c 111 h = downOf V c := by
  funext y
  have e1 : outs V c 111 h = Pipeline.accAt (rst V c) (stp V c) 0 111 h :=
    Pipeline.eq_accAt (outs V c) 112 (rst V c) (stp V c) (outs_reset V c) (outs_step V c) 0 111 (by decide) h
  have e2 : Pipeline.accAt (rst V c) (stp V c) 0 111 h y
      = (fun _ => (0 : EReal)) y + ∑ s ∈ Finset.range (111 + 1), addend V c (0 + s) y :=
    Pipeline.accAt_add_apply (rst V c) (stp V c) (fun _ => (0 : EReal)) (addend V c) 0 111
      (fun _ _ => rfl) (fun _ _ _ _ _ _ => rfl) 111 le_rfl h y
  have e3 : ∑ s ∈ Finset.range (111 + 1), addend V c (0 + s) y = downOf V c y := by
    show _ = ∑ n : Fin 14336, term V c (y 0) (y 1) n
    rw [sum_fin_blocks 112 128 rfl (term V c (y 0) (y 1))]
    exact Finset.sum_congr rfl fun s _ => by rw [Nat.zero_add]; rfl
  exact (congrFun e1 y).trans (e2.trans ((congrArg (fun z : EReal => 0 + z) e3).trans (zero_add _)))

/-- The accumulator after the one point that writes it back. -/
private theorem outs_at_flush (c : Dev nD) (t : Fin cfg1.N) (h3 : t.val = 111) : outsAt1 V c t.val t.isLt = downOf V c := by
  obtain ⟨n, hn⟩ := t
  dsimp only at h3
  subst h3
  exact outs_last V c hn

/-! ## The one write-back

Only the last point writes the output block back, and that block is the whole output array, so the array ends
holding what the accumulator holds after the last point. -/

/-- The last grid point. -/
private abbrev tlast : Fin cfg1.N := ⟨111, by rw [show cfg1.N = 112 from N_1]; decide⟩

/-- The point that writes the block back writes the down projection: its block, read through zero offsets, is the
    whole array. -/
private theorem flushed_eq (c : Dev nD) (t : Fin cfg1.N) (hf : (cfg1.win 4).flush t = true) :
    (dat1 V c).flushed 4 t = ((cfg1.win 4).blk t).view.read (Elt Ideal) (downOf V c) := by
  have hN : cfg1.N = 112 := N_1
  have h3 : t.val = 111 := by have := (flush1_4 t).mp hf; have := t.isLt; omega
  show (cfg1.win 4).cut (grid1.coords t) ((dat1 V c).after 4 t) = _
  rw [after1_4, outs_at_flush V c t h3]
  have hz' : (fun a => win1_4.index t a * main_v4.ty.shape.size a) = fun _ => 0 := funext fun a => by
    match a with
    | ⟨0, _⟩ => show win1_4.index t 0 * 1024 = 0; rw [(idx_facts t).2.2.2.2.1]
    | ⟨1, _⟩ => show win1_4.index t 1 * 4096 = 0; rw [(idx_facts t).2.2.2.2.2]
  exact (Memref.read_access_unit_zero (Elt Ideal) main_v4 hz' (fun a => by rw [congrFun hz' a]; simp) (downOf V c)).symm

/-- After the second region its result array holds the down projection of the arrays the region found. -/
theorem down_arr (c : Dev nD) : (dat1 (F := Ideal) V c).arrAt 4 cfg1.N = downOf V c :=
  (dat1 V c).arrAt_eq_of_cover 4 (downOf V c) (flushed_eq V c) fun i =>
    ⟨tlast, (flush1_4 tlast).mpr rfl, by
      show i ∈ ((View.whole main_v4).slice (win1_4.rect tlast)).set
      rw [View.set_slice_whole, Rect.mem_set_unit]
      intro a
      have h0 : (i 0 : Nat) < 1024 := (i 0).isLt
      have h1 : (i 1 : Nat) < 4096 := (i 1).isLt
      match a with
      | ⟨0, _⟩ =>
        show win1_4.index tlast 0 * 1024 ≤ (i 0 : Nat) ∧ (i 0 : Nat) < win1_4.index tlast 0 * 1024 + 1024
        rw [(idx_facts tlast).2.2.2.2.1]; omega
      | ⟨1, _⟩ =>
        show win1_4.index tlast 1 * 4096 ≤ (i 1 : Nat) ∧ (i 1 : Nat) < win1_4.index tlast 1 * 4096 + 4096
        rw [(idx_facts tlast).2.2.2.2.2]; omega⟩

end Cert.KernelIdeal.Down

end
-- ==== Proof.Glue.lean ====
/-
  The whole program from its launch memory: the host operations around the two regions, and the regions' values
  composed.

  Before the first region the host flattens the input [4, 256, 4096] to [1024, 4096] (row 256·b + s is the input's row
  (b, s); the change of float format is the identity at the ideal values) and transposes the down scale factor
  [4096, 4] to [4, 4096]. The first region leaves the hidden array; the second reads it, the down weight, the
  transposed factor and the other factor, and leaves the flat output [1024, 4096]; the host reshapes it back to
  [4, 256, 4096]. Reading each boundary's contents back to the launch memory, entry (b, s, o) of the result is
  outRow of the input's row (b, s) at o: the function `result` of the ten argument arrays.
-/
import proofs.«141312_j57269093925327_1_alg».proof.Proof.RunValue
import proofs.«141312_j57269093925327_1_alg».proof.Proof.GateUp
import proofs.«141312_j57269093925327_1_alg».proof.Proof.Down
import Idealize.ShloMosaic.Lib.Pipeline.Value
import Idealize.ShloMosaic.Lib.StableHlo.Run

noncomputable section

open scoped BigOperators

namespace Cert.KernelIdeal.Glue

open Cert.KernelIdeal Cert.KernelIdeal.Gen Cert.ScaledMlp Cert.KernelIdeal.RegionSpec
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-! The argument arrays as launched, each at its literal type. -/
abbrev a0 (c : Dev nD) : A3 4 256 4096 := m ((c : Thread nD τ).loc main_arg0)
abbrev a1 (c : Dev nD) : A2 14336 4096 := m ((c : Thread nD τ).loc main_arg1)
abbrev a2 (c : Dev nD) : A2 14336 4 := m ((c : Thread nD τ).loc main_arg2)
abbrev a3 (c : Dev nD) : A2 4 4096 := m ((c : Thread nD τ).loc main_arg3)
abbrev a4 (c : Dev nD) : A2 14336 4096 := m ((c : Thread nD τ).loc main_arg4)
abbrev a5 (c : Dev nD) : A2 14336 4 := m ((c : Thread nD τ).loc main_arg5)
abbrev a6 (c : Dev nD) : A2 4 4096 := m ((c : Thread nD τ).loc main_arg6)
abbrev a7 (c : Dev nD) : A2 4096 14336 := m ((c : Thread nD τ).loc main_arg7)
abbrev a8 (c : Dev nD) : A2 4096 4 := m ((c : Thread nD τ).loc main_arg8)
abbrev a9 (c : Dev nD) : A2 4 14336 := m ((c : Thread nD τ).loc main_arg9)

/-- Row 256·b + s of the flattened input. -/
def row (b : Fin 4) (s : Fin 256) : Fin 1024 := ⟨256 * b.val + s.val, by have := b.isLt; have := s.isLt; omega⟩

/-! ## Before the first region -/

theorem V1_x (c : Dev nD) : xArr (V1 m ρ) c
    = (truncf (F := Ideal) .bf16 (shapeCast S1024x4096 (a0 m c) shapeCasts_S4x256x4096_S1024x4096) bitsLt_bf16_f32 : FVec Ideal S1024x4096 .bf16) := by
  show StableHlo.after hostOps0 (W0 m ρ c) (Proc.devRef .tc main_v1) = _
  after_results <;> rfl

/-- The flattened input at row 256·b + s is the input's row (b, s). -/
theorem V1_x_apply (c : Dev nD) (b : Fin 4) (s : Fin 256) (h : Fin 4096) :
    xArr (V1 m ρ) c (ix2 (row b s) h) = a0 m c (ix3 b s h) := by
  rw [V1_x]
  show shapeCast S1024x4096 (a0 m c) shapeCasts_S4x256x4096_S1024x4096 (ix2 (row b s) h) = _
  refine shapeCast_apply (a0 m c) _ _ _ ?_
  rw [Shape.rowMajor_val_three, Shape.rowMajor_val_two]
  show (b.val * 256 + s.val) * 4096 + h.val = (256 * b.val + s.val) * 4096 + h.val
  omega

theorem V1_gw (c : Dev nD) : gwArr (V1 m ρ) c = a1 m c := by
  show StableHlo.after hostOps0 (W0 m ρ c) (Proc.devRef .tc main_arg1) = _
  after_results <;> rfl
theorem V1_gsu (c : Dev nD) : gsuArr (V1 m ρ) c = a2 m c := by
  show StableHlo.after hostOps0 (W0 m ρ c) (Proc.devRef .tc main_arg2) = _
  after_results <;> rfl
theorem V1_gsv (c : Dev nD) : gsvArr (V1 m ρ) c = a3 m c := by
  show StableHlo.after hostOps0 (W0 m ρ c) (Proc.devRef .tc main_arg3) = _
  after_results <;> rfl
theorem V1_uw (c : Dev nD) : uwArr (V1 m ρ) c = a4 m c := by
  show StableHlo.after hostOps0 (W0 m ρ c) (Proc.devRef .tc main_arg4) = _
  after_results <;> rfl
theorem V1_usu (c : Dev nD) : usuArr (V1 m ρ) c = a5 m c := by
  show StableHlo.after hostOps0 (W0 m ρ c) (Proc.devRef .tc main_arg5) = _
  after_results <;> rfl
theorem V1_usv (c : Dev nD) : usvArr (V1 m ρ) c = a6 m c := by
  show StableHlo.after hostOps0 (W0 m ρ c) (Proc.devRef .tc main_arg6) = _
  after_results <;> rfl
theorem V1_dw (c : Dev nD) : dwArr (V1 m ρ) c = a7 m c := by
  show StableHlo.after hostOps0 (W0 m ρ c) (Proc.devRef .tc main_arg7) = _
  after_results <;> rfl
theorem V1_dsv (c : Dev nD) : dsvArr (V1 m ρ) c = a9 m c := by
  show StableHlo.after hostOps0 (W0 m ρ c) (Proc.devRef .tc main_arg9) = _
  after_results <;> rfl
theorem V1_dsuT (c : Dev nD) : dsuTArr (V1 m ρ) c = (transpose S4x4096 [1, 0] (a8 m c) transposes_S4096x4_S4x4096_1_0 : A2 4 4096) := by
  show StableHlo.after hostOps0 (W0 m ρ c) (Proc.devRef .tc main_v2) = _
  after_results <;> rfl

/-- The transposed factor at (q, o) is the factor at (o, q). -/
theorem V1_dsuT_apply (c : Dev nD) (q : Fin 4) (o : Fin 4096) : dsuTArr (V1 m ρ) c (ix2 q o) = a8 m c (ix2 o q) := by
  rw [V1_dsuT]
  exact transpose_apply _ (a8 m c) _ _ _ fun b => match b with | ⟨0, _⟩ => rfl | ⟨1, _⟩ => rfl

/-! ## Between the regions: the first region writes only its result array -/

theorem V2_hid (c : Dev nD) : hidArr (V2 m ρ) c = hiddenOf (V1 m ρ) c :=
  (W2_arr m ρ c 7).trans (GateUp.hidden_arr (V1 m ρ) c)
theorem V2_dw (c : Dev nD) : dwArr (V2 m ρ) c = a7 m c :=
  (W2_of_ne m ρ c main_arg7 (by decide)).trans (V1_dw m ρ c)
theorem V2_dsv (c : Dev nD) : dsvArr (V2 m ρ) c = a9 m c :=
  (W2_of_ne m ρ c main_arg9 (by decide)).trans (V1_dsv m ρ c)
theorem V2_dsuT (c : Dev nD) : dsuTArr (V2 m ρ) c = dsuTArr (V1 m ρ) c :=
  W2_of_ne m ρ c main_v2 (by decide)

/-! ## After the second region -/

theorem W3_out (c : Dev nD) : (W3 m ρ c (Proc.devRef .tc main_v4) : A2 1024 4096) = downOf (V2 m ρ) c :=
  (W3_arr m ρ c 4).trans (Down.down_arr (V2 m ρ) c)

theorem W4_out (c : Dev nD) : (W4 m ρ c (Proc.devRef .tc main_v5) : A3 4 256 4096)
    = shapeCast S4x256x4096 (W3 m ρ c (Proc.devRef .tc main_v4) : A2 1024 4096) shapeCasts_S1024x4096_S4x256x4096 := by
  show StableHlo.after hostOps2 (W3 m ρ c) (Proc.devRef .tc main_v5) = _
  after_results <;> rfl

/-- The result at (b, s, o) is the flat output at row 256·b + s, column o. -/
theorem W4_out_apply (c : Dev nD) (b : Fin 4) (s : Fin 256) (o : Fin 4096) :
    (W4 m ρ c (Proc.devRef .tc main_v5) : A3 4 256 4096) (ix3 b s o) = downOf (V2 m ρ) c (ix2 (row b s) o) := by
  rw [W4_out, W3_out]
  refine shapeCast_apply (downOf (V2 m ρ) c) _ _ _ ?_
  rw [Shape.rowMajor_val_three, Shape.rowMajor_val_two]
  show (256 * b.val + s.val) * 4096 + o.val = (b.val * 256 + s.val) * 4096 + o.val
  omega

/-! ## The result is the specification's function of the arguments -/

/-- The down weight's scale read through the transposed factor is the scale read through the factor. -/
theorem weff_down (c : Dev nD) :
    weff (cur2 (dwArr (V2 m ρ) c)) (cur2T (dsuTArr (V2 m ρ) c)) (cur2 (dsvArr (V2 m ρ) c))
      = weff (cur2 (a7 m c)) (cur2 (a8 m c)) (cur2 (a9 m c)) := by
  rw [V2_dw, V2_dsv, V2_dsuT]
  have e : cur2T (dsuTArr (V1 m ρ) c) = cur2 (a8 m c) := funext fun o => funext fun q => V1_dsuT_apply m ρ c q o
  rw [e]

theorem W4_result (c : Dev nD) : (W4 m ρ c (Proc.devRef .tc main_v5) : A3 4 256 4096)
    = result (a0 m c) (a1 m c) (a2 m c) (a3 m c) (a4 m c) (a5 m c) (a6 m c) (a7 m c) (a8 m c) (a9 m c) := by
  funext i
  obtain ⟨b, s, o, rfl⟩ : ∃ (b : Fin 4) (s : Fin 256) (o : Fin 4096), i = ix3 b s o := ⟨i 0, i 1, i 2, eq_ix3 i⟩
  rw [W4_out_apply]
  show (∑ n : Fin 14336, hidArr (V2 m ρ) c (ix2 (row b s) n)
      * weff (cur2 (dwArr (V2 m ρ) c)) (cur2T (dsuTArr (V2 m ρ) c)) (cur2 (dsvArr (V2 m ρ) c)) o n) = _
  rw [weff_down, V2_hid]
  show (∑ n : Fin 14336, hidden (fun h => xArr (V1 m ρ) c (ix2 (row b s) h))
        (weff (cur2 (gwArr (V1 m ρ) c)) (cur2 (gsuArr (V1 m ρ) c)) (cur2 (gsvArr (V1 m ρ) c)))
        (weff (cur2 (uwArr (V1 m ρ) c)) (cur2 (usuArr (V1 m ρ) c)) (cur2 (usvArr (V1 m ρ) c))) n
      * weff (cur2 (a7 m c)) (cur2 (a8 m c)) (cur2 (a9 m c)) o n) = _
  rw [V1_gw, V1_gsu, V1_gsv, V1_uw, V1_usu, V1_usv]
  have ex : (fun h => xArr (V1 m ρ) c (ix2 (row b s) h)) = fun h => a0 m c (ix3 b s h) :=
    funext fun h => V1_x_apply m ρ c b s h
  rw [ex]
  rfl

/-! ## The run -/

/-- Every weakly fair execution of @main terminates, nothing faulting, with the result array at `result` of the
    arguments as launched and every argument array unchanged. -/
theorem run : θ_run defs (onTc (τ := τ) (main (F := Ideal))) ⟨m, fun _ => 0, ρ⟩ (fun r => ∀ c : Dev nD,
      r.2.mem ((c.tc : Thread nD τ).loc main_v5)
        = result (a0 m c) (a1 m c) (a2 m c) (a3 m c) (a4 m c) (a5 m c) (a6 m c) (a7 m c) (a8 m c) (a9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (W4_result m ρ c), (h c).2⟩)
    (Cert.KernelIdeal.RunValue.run_value (F := Ideal) m ρ)

end Cert.KernelIdeal.Glue

end
-- ==== Proof.RefSpec.lean ====
import proofs.«141312_j57269093925327_1_alg».proof.Proof.Gen.ReferenceIdeal.Read
import proofs.«141312_j57269093925327_1_alg».proof.Proof.Spec
import Idealize.ShloMosaic.Lib.IdealHost

noncomputable section

open scoped BigOperators

namespace Cert.ReferenceIdeal.RefSpec

open Cert.ReferenceIdeal Cert.ReferenceIdeal.Gen Cert.ReferenceIdeal.Read Cert.ScaledMlp
open Idealize.ShloMosaic Idealize.ShloMosaic.TcCoe Idealize.SL.Sem Idealize.ShloMosaic.ValueIdx

/-! ## The three scaled weights, entry by entry

Each layer's stored matrix is multiplied entrywise by the product of its two thin factors; entry (o, h) of that
product is the sum over the four inner positions q of su(o, q) · sv(q, h). -/

/-- Gate layer: entry (o, h) of the product of the two thin factors. -/
private theorem gate_scale_at (su : A2 14336 4) (sv : A2 4 4096) (o : Fin 14336) (h : Fin 4096) :
    val_main_v0 (F := Ideal) su sv (ix2 o h) = corr (cur2 su) (cur2 sv) o h := by
  rw [val_main_v0_apply]
  unfold corr cur2
  refine Finset.sum_congr rfl fun q _ => ?_
  have el : lidx_main_v0 (ix2 o h) q = ix2 o q :=
    funext fun a => Fin.ext (by match a with | ⟨0, _⟩ => rfl | ⟨1, _⟩ => rfl)
  have er : ridx_main_v0 (ix2 o h) q = ix2 q h :=
    funext fun a => Fin.ext (by match a with | ⟨0, _⟩ => rfl | ⟨1, _⟩ => rfl)
  rw [el, er]

/-- Gate layer: entry (o, h) of the effective weight. -/
private theorem gate_weight_at (w : A2 14336 4096) (su : A2 14336 4) (sv : A2 4 4096) (o : Fin 14336) (h : Fin 4096) :
    val_main_v1 (F := Ideal) w su sv (ix2 o h) = weff (cur2 w) (cur2 su) (cur2 sv) o h := by
  rw [val_main_v1_apply, Ideal.mulf_def, gate_scale_at]
  rfl

/-- Up layer: entry (o, h) of the product of the two thin factors. -/
private theorem up_scale_at (su : A2 14336 4) (sv : A2 4 4096) (o : Fin 14336) (h : Fin 4096) :
    val_main_v3 (F := Ideal) su sv (ix2 o h) = corr (cur2 su) (cur2 sv) o h := by
  rw [val_main_v3_apply]
  unfold corr cur2
  refine Finset.sum_congr rfl fun q _ => ?_
  have el : lidx_main_v3 (ix2 o h) q = ix2 o q :=
    funext fun a => Fin.ext (by match a with | ⟨0, _⟩ => rfl | ⟨1, _⟩ => rfl)
  have er : ridx_main_v3 (ix2 o h) q = ix2 q h :=
    funext fun a => Fin.ext (by match a with | ⟨0, _⟩ => rfl | ⟨1, _⟩ => rfl)
  rw [el, er]

/-- Up layer: entry (o, h) of the effective weight. -/
private theorem up_weight_at (w : A2 14336 4096) (su : A2 14336 4) (sv : A2 4 4096) (o : Fin 14336) (h : Fin 4096) :
    val_main_v4 (F := Ideal) w su sv (ix2 o h) = weff (cur2 w) (cur2 su) (cur2 sv) o h := by
  rw [val_main_v4_apply, Ideal.mulf_def, up_scale_at]
  rfl

/-- Down layer: entry (o, i) of the product of the two thin factors. -/
private theorem down_scale_at (su : A2 4096 4) (sv : A2 4 14336) (o : Fin 4096) (i : Fin 14336) :
    val_main_v8 (F := Ideal) su sv (ix2 o i) = corr (cur2 su) (cur2 sv) o i := by
  rw [val_main_v8_apply]
  unfold corr cur2
  refine Finset.sum_congr rfl fun q _ => ?_
  have el : lidx_main_v8 (ix2 o i) q = ix2 o q :=
    funext fun a => Fin.ext (by match a with | ⟨0, _⟩ => rfl | ⟨1, _⟩ => rfl)
  have er : ridx_main_v8 (ix2 o i) q = ix2 q i :=
    funext fun a => Fin.ext (by match a with | ⟨0, _⟩ => rfl | ⟨1, _⟩ => rfl)
  rw [el, er]

/-- Down layer: entry (o, i) of the effective weight. -/
private theorem down_weight_at (w : A2 4096 14336) (su : A2 4096 4) (sv : A2 4 14336) (o : Fin 4096) (i : Fin 14336) :
    val_main_v9 (F := Ideal) w su sv (ix2 o i) = weff (cur2 w) (cur2 su) (cur2 sv) o i := by
  rw [val_main_v9_apply, Ideal.mulf_def, down_scale_at]
  rfl

/-! ## The two projections of a row

Row (b, s) of the input against row i of an effective weight: the sum over the 4096 positions h. -/

/-- The gate projection of row (b, s) at hidden position i. -/
private theorem gate_proj_at (x : A3 4 256 4096) (w : A2 14336 4096) (su : A2 14336 4) (sv : A2 4 4096)
    (b : Fin 4) (s : Fin 256) (i : Fin 14336) :
    val_main_v2 (F := Ideal) x w su sv (ix3 b s i)
      = proj (fun h => x (ix3 b s h)) (weff (cur2 w) (cur2 su) (cur2 sv)) i := by
  rw [val_main_v2_apply]
  unfold proj
  refine Finset.sum_congr rfl fun h _ => ?_
  have el : lidx_main_v2 (ix3 b s i) h = ix3 b s h :=
    funext fun a => Fin.ext (by match a with | ⟨0, _⟩ => rfl | ⟨1, _⟩ => rfl | ⟨2, _⟩ => rfl)
  have er : ridx_main_v2 (ix3 b s i) h = ix2 i h :=
    funext fun a => Fin.ext (by match a with | ⟨0, _⟩ => rfl | ⟨1, _⟩ => rfl)
  rw [el, er, gate_weight_at]

/-- The up projection of row (b, s) at hidden position i. -/
private theorem up_proj_at (x : A3 4 256 4096) (w : A2 14336 4096) (su : A2 14336 4) (sv : A2 4 4096)
    (b : Fin 4) (s : Fin 256) (i : Fin 14336) :
    val_main_v5 (F := Ideal) x w su sv (ix3 b s i)
      = proj (fun h => x (ix3 b s h)) (weff (cur2 w) (cur2 su) (cur2 sv)) i := by
  rw [val_main_v5_apply]
  unfold proj
  refine Finset.sum_congr rfl fun h _ => ?_
  have el : lidx_main_v5 (ix3 b s i) h = ix3 b s h :=
    funext fun a => Fin.ext (by match a with | ⟨0, _⟩ => rfl | ⟨1, _⟩ => rfl | ⟨2, _⟩ => rfl)
  have er : ridx_main_v5 (ix3 b s i) h = ix2 i h :=
    funext fun a => Fin.ext (by match a with | ⟨0, _⟩ => rfl | ⟨1, _⟩ => rfl)
  rw [el, er, up_weight_at]

/-! ## The gated unit

The program spells the logistic function out as 1 / (1 + exp (-a)) with both ones given as the single-precision
pattern of one; over the extended reals that expression is the logistic function itself. -/

/-- The quotient 1 / (1 + exp (-a)), the ones given by their bit pattern, is the logistic function of a. -/
private theorem logistic_spelt (a : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) a)))
      = Ideal.logistic a := by
  rw [Ideal.ofBits_one_f32]
  rfl

/-- The gate projection times its logistic value, at any index. -/
private theorem silu_at (x : A3 4 256 4096) (w : A2 14336 4096) (su : A2 14336 4) (sv : A2 4 4096)
    (j : S4x256x14336.Idx) :
    val_main_v6 (F := Ideal) x w su sv j = silu (val_main_v2 (F := Ideal) x w su sv j) := by
  rw [val_main_v6_apply, val_main_call0_v5_apply, val_main_call0_v4_apply, val_main_call0_cst_0_apply,
    val_main_call0_v3_apply, val_main_call0_v2_apply, val_main_call0_cst_apply, val_main_call0_v1_apply,
    val_main_call0_v0_apply]
  generalize val_main_v2 (F := Ideal) x w su sv j = a
  rw [Ideal.ofBits_def, logistic_spelt, Ideal.mulf_def]
  rfl

/-- Hidden unit i of row (b, s): the gated gate projection times the up projection. -/
private theorem hidden_at (x : A3 4 256 4096) (gw : A2 14336 4096) (gsu : A2 14336 4) (gsv : A2 4 4096)
    (uw : A2 14336 4096) (usu : A2 14336 4) (usv : A2 4 4096) (b : Fin 4) (s : Fin 256) (i : Fin 14336) :
    val_main_v7 (F := Ideal) x gw gsu gsv uw usu usv (ix3 b s i)
      = hidden (fun h => x (ix3 b s h)) (weff (cur2 gw) (cur2 gsu) (cur2 gsv))
          (weff (cur2 uw) (cur2 usu) (cur2 usv)) i := by
  rw [val_main_v7_apply, Ideal.mulf_def, silu_at, gate_proj_at, up_proj_at]
  rfl

/-! ## The down projection -/

/-- The reference's last stage, at the ideal values, is the result function of the ten arguments. -/
theorem ref_eq (x0 : A3 4 256 4096) (x1 : A2 14336 4096) (x2 : A2 14336 4) (x3 : A2 4 4096)
    (x4 : A2 14336 4096) (x5 : A2 14336 4) (x6 : A2 4 4096) (x7 : A2 4096 14336) (x8 : A2 4096 4) (x9 : A2 4 14336) :
    val_main_v10 (F := Ideal) x0 x1 x2 x3 x4 x5 x6 x7 x8 x9 = result x0 x1 x2 x3 x4 x5 x6 x7 x8 x9 := by
  funext i
  obtain ⟨b, s, o, rfl⟩ : ∃ b s o, i = ix3 b s o := ⟨i 0, i 1, i 2, eq_ix3 i⟩
  rw [val_main_v10_apply]
  show _ = outRow (fun h => x0 (ix3 b s h)) (weff (cur2 x1) (cur2 x2) (cur2 x3))
    (weff (cur2 x4) (cur2 x5) (cur2 x6)) (weff (cur2 x7) (cur2 x8) (cur2 x9)) o
  unfold outRow downTerm
  refine Finset.sum_congr rfl fun k _ => ?_
  have el : lidx_main_v10 (ix3 b s o) k = ix3 b s k :=
    funext fun a => Fin.ext (by match a with | ⟨0, _⟩ => rfl | ⟨1, _⟩ => rfl | ⟨2, _⟩ => rfl)
  have er : ridx_main_v10 (ix3 b s o) k = ix2 o k :=
    funext fun a => Fin.ext (by match a with | ⟨0, _⟩ => rfl | ⟨1, _⟩ => rfl)
  rw [el, er, hidden_at, down_weight_at]

end Cert.ReferenceIdeal.RefSpec

end
-- ==== Proof.lean ====
/- Two programs compute a three-layer gated projection whose weights are stored matrices scaled entrywise by rank-4
   products: out(b, s, o) = Σ_i hidden(b, s, i) · Wd(o, i), hidden = (a · logistic a) · u, a and u the projections of
   the input row (b, s) through the scaled gate and up weights. The kernel program flattens the input to 1024 rows,
   computes the hidden array in a first region tile by tile, and in a second region adds the 14336 terms of the last
   sum in 112 consecutive runs of 128 into a resident block started at zero; the reference computes each sum whole.
   At the ideal values a change of float format is the identity, a block product into zero is the plain sum, the
   logistic is 1 / (1 + e^(-a)) on both sides, and a sum over Fin 14336 is the sum of its runs in any commutative
   monoid: so both result arrays are the one function `result` of the ten arguments (Spec.lean), with no use of the
   inputs' finiteness. The three frames are the programs' runs with the result dropped; the idealization rewrote
   nothing, so `preserves` is `True`. -/
import proofs.«141312_j57269093925327_1_alg».proof.Defs
import proofs.«141312_j57269093925327_1_alg».proof.Proof.Gen.Kernel
import proofs.«141312_j57269093925327_1_alg».proof.Proof.Gen.Kernel.Skeleton
import proofs.«141312_j57269093925327_1_alg».proof.Proof.Gen.Kernel.Launch
import proofs.«141312_j57269093925327_1_alg».proof.Proof.Gen.Kernel.Points
import proofs.«141312_j57269093925327_1_alg».proof.Proof.Gen.Kernel.Frame
import proofs.«141312_j57269093925327_1_alg».proof.Proof.Gen.KernelIdeal
import proofs.«141312_j57269093925327_1_alg».proof.Proof.Gen.KernelIdeal.Skeleton
import proofs.«141312_j57269093925327_1_alg».proof.Proof.Gen.KernelIdeal.Launch
import proofs.«141312_j57269093925327_1_alg».proof.Proof.Gen.KernelIdeal.Points
import proofs.«141312_j57269093925327_1_alg».proof.Proof.Gen.KernelIdeal.Frame
import proofs.«141312_j57269093925327_1_alg».proof.Proof.Gen.ReferenceIdeal
import proofs.«141312_j57269093925327_1_alg».proof.Proof.Gen.Pre_finite_inputs
import proofs.«141312_j57269093925327_1_alg».proof.Proof.Gen.ReferenceIdeal.Run
import proofs.«141312_j57269093925327_1_alg».proof.Proof.Gen.ReferenceIdeal.Read
import proofs.«141312_j57269093925327_1_alg».proof.Proof.Glue
import proofs.«141312_j57269093925327_1_alg».proof.Proof.RefSpec
import Idealize.ShloMosaic.Adequacy
import Idealize.ShloMosaic.Init

noncomputable section

namespace Cert.Proof

open Idealize.ShloMosaic Idealize.SL.Sem Cert.Kernel

/-- At the ideal values the kernel program's result array ends at `result` of its arguments (the two regions'
    values composed through the host operations) and the reference's at its last stage of arguments that agree, which
    is the same function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Glue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact Cert.ReferenceIdeal.RefSpec.ref_eq _ _ _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
